-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_v125) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S30000x128 : Shape := ⟨2, ![30000, 128]⟩
abbrev S20000x128 : Shape := ⟨2, ![20000, 128]⟩
abbrev S16x128 : Shape := ⟨2, ![16, 128]⟩
abbrev S640000 : Shape := ⟨1, ![640000]⟩
abbrev S_ : Shape := ⟨0, ![]⟩

class Facts : Prop where
  bcast_S_S30000x128 : S_.BroadcastsInDim S30000x128 (![] : Fin 0 → Fin S30000x128.rank)
  reducesTo_S30000x128_S_d0_1 : S30000x128.ReducesTo [0, 1] S_
  h_S_ : 0 < S_.numel
  bcast_S_S20000x128 : S_.BroadcastsInDim S20000x128 (![] : Fin 0 → Fin S20000x128.rank)
  reducesTo_S20000x128_S_d0_1 : S20000x128.ReducesTo [0, 1] S_
  bcast_S_S16x128 : S_.BroadcastsInDim S16x128 (![] : Fin 0 → Fin S16x128.rank)
  reducesTo_S16x128_S_d0_1 : S16x128.ReducesTo [0, 1] S_
  bcast_S_S640000 : S_.BroadcastsInDim S640000 (![] : Fin 0 → Fin S640000.rank)
  reducesTo_S640000_S_d0 : S640000.ReducesTo [0] S_

variable [Facts]

def fn_part1 {F : FTy → Type} [FloatOps F] (main_arg4 : IVec S640000 32) (main_arg5 : IVec S640000 32) (main_v13 : IVec S_ 1) (main_v15 : IVec S640000 1) (main_c_5 : IVec S_ 32) : IVec S_ 1 :=
  let main_v16 : IVec S640000 32 := broadcastInDim S640000 ![] bcast_S_S640000 main_c_5
  let main_v17 : IVec S640000 1 := cmpi .slt main_arg4 main_v16
  let main_v18 : IVec S640000 1 := andi main_v15 main_v17
  let main_c_6 : IVec S_ 1 := constantI S_ 1 1#1
  let main_v19 : IVec S_ 1 := (fun x v => Host.reduce IntOp.andi x v reducesTo_S640000_S_d0 h_S_) main_v18 main_c_6
  let main_v20 : IVec S_ 1 := andi main_v13 main_v19
  let main_c_7 : IVec S_ 32 := constantI S_ 32 4294967280#32
  let main_v21 : IVec S640000 32 := broadcastInDim S640000 ![] bcast_S_S640000 main_c_7
  let main_v22 : IVec S640000 1 := cmpi .sge main_arg5 main_v21
  let main_c_8 : IVec S_ 32 := constantI S_ 32 16#32
  let main_v23 : IVec S640000 32 := broadcastInDim S640000 ![] bcast_S_S640000 main_c_8
  let main_v24 : IVec S640000 1 := cmpi .slt main_arg5 main_v23
  let main_v25 : IVec S640000 1 := andi main_v22 main_v24
  let main_c_9 : IVec S_ 1 := constantI S_ 1 1#1
  let main_v26 : IVec S_ 1 := (fun x v => Host.reduce IntOp.andi x v reducesTo_S640000_S_d0 h_S_) main_v25 main_c_9
  let main_v27 : IVec S_ 1 := andi main_v20 main_v26
  main_v27

def fn {F : FTy → Type} [FloatOps F] (main_arg0 : FVec F S30000x128 .f32) (main_arg1 : FVec F S20000x128 .f32) (main_arg2 : FVec F S16x128 .f32) (main_arg3 : IVec S640000 32) (main_arg4 : IVec S640000 32) (main_arg5 : IVec S640000 32) : IVec S_ 1 :=
  let main_v0 : FVec F S30000x128 .f32 := Host.absf main_arg0
  let main_cst : FVec F S_ .f32 := constant S_ .f32 0x7F800000#32
  let main_v1 : FVec F S30000x128 .f32 := broadcastInDim S30000x128 ![] bcast_S_S30000x128 main_cst
  let main_v2 : IVec S30000x128 1 := cmpf .olt main_v0 main_v1
  let main_c : IVec S_ 1 := constantI S_ 1 1#1
  let main_v3 : IVec S_ 1 := (fun x v => Host.reduce IntOp.andi x v reducesTo_S30000x128_S_d0_1 h_S_) main_v2 main_c
  let main_v4 : FVec F S20000x128 .f32 := Host.absf main_arg1
  let main_cst_0 : FVec F S_ .f32 := constant S_ .f32 0x7F800000#32
  let main_v5 : FVec F S20000x128 .f32 := broadcastInDim S20000x128 ![] bcast_S_S20000x128 main_cst_0
  let main_v6 : IVec S20000x128 1 := cmpf .olt main_v4 main_v5
  let main_c_1 : IVec S_ 1 := constantI S_ 1 1#1
  let main_v7 : IVec S_ 1 := (fun x v => Host.reduce IntOp.andi x v reducesTo_S20000x128_S_d0_1 h_S_) main_v6 main_c_1
  let main_v8 : IVec S_ 1 := andi main_v3 main_v7
  let main_v9 : FVec F S16x128 .f32 := Host.absf main_arg2
  let main_cst_2 : FVec F S_ .f32 := constant S_ .f32 0x7F800000#32
  let main_v10 : FVec F S16x128 .f32 := broadcastInDim S16x128 ![] bcast_S_S16x128 main_cst_2
  let main_v11 : IVec S16x128 1 := cmpf .olt main_v9 main_v10
  let main_c_3 : IVec S_ 1 := constantI S_ 1 1#1
  let main_v12 : IVec S_ 1 := (fun x v => Host.reduce IntOp.andi x v reducesTo_S16x128_S_d0_1 h_S_) main_v11 main_c_3
  let main_v13 : IVec S_ 1 := andi main_v8 main_v12
  let main_c_4 : IVec S_ 32 := constantI S_ 32 4294917296#32
  let main_v14 : IVec S640000 32 := broadcastInDim S640000 ![] bcast_S_S640000 main_c_4
  let main_v15 : IVec S640000 1 := cmpi .sge main_arg4 main_v14
  let main_c_5 : IVec S_ 32 := constantI S_ 32 50000#32
  fn_part1 (F := F) main_arg4 main_arg5 main_v13 main_v15 main_c_5
-- ==== Kernel.lean ====
abbrev S30000x128 : Shape := ⟨2, ![30000, 128]⟩
abbrev S20000x128 : Shape := ⟨2, ![20000, 128]⟩
abbrev S16x128 : Shape := ⟨2, ![16, 128]⟩
abbrev S640000 : Shape := ⟨1, ![640000]⟩
abbrev S50000x128 : Shape := ⟨2, ![50000, 128]⟩
abbrev S5000x128 : Shape := ⟨2, ![5000, 128]⟩
abbrev S5000 : Shape := ⟨1, ![5000]⟩
abbrev S5000x1 : Shape := ⟨2, ![5000, 1]⟩
abbrev S_ : Shape := ⟨0, ![]⟩
abbrev S640000x1 : Shape := ⟨2, ![640000, 1]⟩
abbrev S1 : Shape := ⟨1, ![1]⟩
abbrev S1x1 : Shape := ⟨2, ![1, 1]⟩
abbrev S640000x128 : Shape := ⟨2, ![640000, 128]⟩
abbrev S2560x128 : Shape := ⟨2, ![2560, 128]⟩
abbrev S2560 : Shape := ⟨1, ![2560]⟩
abbrev S2560x1 : Shape := ⟨2, ![2560, 1]⟩
abbrev S50000 : Shape := ⟨1, ![50000]⟩
abbrev S50000x1 : Shape := ⟨2, ![50000, 1]⟩

abbrev nBuf : Space → Nat
  | .hbm => 97
  | .vmem => 10
  | .smem => 0
  | _ => 0

abbrev bufTy : (tb : Table) → Fin (tcTables nBuf tb) → BufTy
  | .hbm, ⟨0, _⟩ => ⟨S30000x128, .f32⟩
  | .hbm, ⟨1, _⟩ => ⟨S20000x128, .f32⟩
  | .hbm, ⟨2, _⟩ => ⟨S16x128, .f32⟩
  | .hbm, ⟨3, _⟩ => ⟨S640000, .i32⟩
  | .hbm, ⟨4, _⟩ => ⟨S640000, .i32⟩
  | .hbm, ⟨5, _⟩ => ⟨S640000, .i32⟩
  | .hbm, ⟨6, _⟩ => ⟨S50000x128, .f32⟩
  | .hbm, ⟨7, _⟩ => ⟨S50000x128, .f32⟩
  | .hbm, ⟨8, _⟩ => ⟨S_, .i32⟩
  | .hbm, ⟨9, _⟩ => ⟨S640000, .i32⟩
  | .hbm, ⟨10, _⟩ => ⟨S640000, .i1⟩
  | .hbm, ⟨11, _⟩ => ⟨S_, .i32⟩
  | .hbm, ⟨12, _⟩ => ⟨S640000, .i32⟩
  | .hbm, ⟨13, _⟩ => ⟨S640000, .i32⟩
  | .hbm, ⟨14, _⟩ => ⟨S640000, .i32⟩
  | .hbm, ⟨15, _⟩ => ⟨S640000x1, .i32⟩
  | .hbm, ⟨16, _⟩ => ⟨S1, .i32⟩
  | .hbm, ⟨17, _⟩ => ⟨S_, .i32⟩
  | .hbm, ⟨18, _⟩ => ⟨S640000x1, .i32⟩
  | .hbm, ⟨19, _⟩ => ⟨S640000x1, .i1⟩
  | .hbm, ⟨20, _⟩ => ⟨S1x1, .i32⟩
  | .hbm, ⟨21, _⟩ => ⟨S640000x1, .i32⟩
  | .hbm, ⟨22, _⟩ => ⟨S640000x1, .i1⟩
  | .hbm, ⟨23, _⟩ => ⟨S640000x1, .i1⟩
  | .hbm, ⟨24, _⟩ => ⟨S_, .i1⟩
  | .hbm, ⟨25, _⟩ => ⟨S640000, .i1⟩
  | .hbm, ⟨26, _⟩ => ⟨S640000x128, .f32⟩
  | .hbm, ⟨27, _⟩ => ⟨S640000x128, .i1⟩
  | .hbm, ⟨28, _⟩ => ⟨S_, .f32⟩
  | .hbm, ⟨29, _⟩ => ⟨S640000x128, .f32⟩
  | .hbm, ⟨30, _⟩ => ⟨S640000x128, .f32⟩
  | .hbm, ⟨31, _⟩ => ⟨S_, .i32⟩
  | .hbm, ⟨32, _⟩ => ⟨S640000, .i32⟩
  | .hbm, ⟨33, _⟩ => ⟨S640000, .i1⟩
  | .hbm, ⟨34, _⟩ => ⟨S_, .i32⟩
  | .hbm, ⟨35, _⟩ => ⟨S640000, .i32⟩
  | .hbm, ⟨36, _⟩ => ⟨S640000, .i32⟩
  | .hbm, ⟨37, _⟩ => ⟨S640000, .i32⟩
  | .hbm, ⟨38, _⟩ => ⟨S640000x1, .i32⟩
  | .hbm, ⟨39, _⟩ => ⟨S1, .i32⟩
  | .hbm, ⟨40, _⟩ => ⟨S_, .i32⟩
  | .hbm, ⟨41, _⟩ => ⟨S640000x1, .i32⟩
  | .hbm, ⟨42, _⟩ => ⟨S640000x1, .i1⟩
  | .hbm, ⟨43, _⟩ => ⟨S1x1, .i32⟩
  | .hbm, ⟨44, _⟩ => ⟨S640000x1, .i32⟩
  | .hbm, ⟨45, _⟩ => ⟨S640000x1, .i1⟩
  | .hbm, ⟨46, _⟩ => ⟨S640000x1, .i1⟩
  | .hbm, ⟨47, _⟩ => ⟨S_, .i1⟩
  | .hbm, ⟨48, _⟩ => ⟨S640000, .i1⟩
  | .hbm, ⟨49, _⟩ => ⟨S640000x128, .f32⟩
  | .hbm, ⟨50, _⟩ => ⟨S640000x128, .i1⟩
  | .hbm, ⟨51, _⟩ => ⟨S_, .f32⟩
  | .hbm, ⟨52, _⟩ => ⟨S640000x128, .f32⟩
  | .hbm, ⟨53, _⟩ => ⟨S640000x128, .f32⟩
  | .hbm, ⟨54, _⟩ => ⟨S_, .i32⟩
  | .hbm, ⟨55, _⟩ => ⟨S640000, .i32⟩
  | .hbm, ⟨56, _⟩ => ⟨S640000, .i1⟩
  | .hbm, ⟨57, _⟩ => ⟨S_, .i32⟩
  | .hbm, ⟨58, _⟩ => ⟨S640000, .i32⟩
  | .hbm, ⟨59, _⟩ => ⟨S640000, .i32⟩
  | .hbm, ⟨60, _⟩ => ⟨S640000, .i32⟩
  | .hbm, ⟨61, _⟩ => ⟨S640000x1, .i32⟩
  | .hbm, ⟨62, _⟩ => ⟨S1, .i32⟩
  | .hbm, ⟨63, _⟩ => ⟨S_, .i32⟩
  | .hbm, ⟨64, _⟩ => ⟨S640000x1, .i32⟩
  | .hbm, ⟨65, _⟩ => ⟨S640000x1, .i1⟩
  | .hbm, ⟨66, _⟩ => ⟨S1x1, .i32⟩
  | .hbm, ⟨67, _⟩ => ⟨S640000x1, .i32⟩
  | .hbm, ⟨68, _⟩ => ⟨S640000x1, .i1⟩
  | .hbm, ⟨69, _⟩ => ⟨S640000x1, .i1⟩
  | .hbm, ⟨70, _⟩ => ⟨S_, .i1⟩
  | .hbm, ⟨71, _⟩ => ⟨S640000, .i1⟩
  | .hbm, ⟨72, _⟩ => ⟨S640000x128, .f32⟩
  | .hbm, ⟨73, _⟩ => ⟨S640000x128, .i1⟩
  | .hbm, ⟨74, _⟩ => ⟨S_, .f32⟩
  | .hbm, ⟨75, _⟩ => ⟨S640000x128, .f32⟩
  | .hbm, ⟨76, _⟩ => ⟨S640000x128, .f32⟩
  | .hbm, ⟨77, _⟩ => ⟨S640000x128, .f32⟩
  | .hbm, ⟨78, _⟩ => ⟨S640000x128, .f32⟩
  | .hbm, ⟨79, _⟩ => ⟨S_, .f32⟩
  | .hbm, ⟨80, _⟩ => ⟨S50000x128, .f32⟩
  | .hbm, ⟨81, _⟩ => ⟨S640000x1, .i32⟩
  | .hbm, ⟨82, _⟩ => ⟨S50000x128, .f32⟩
  | .hbm, ⟨83, _⟩ => ⟨S_, .f32⟩
  | .hbm, ⟨84, _⟩ => ⟨S640000, .f32⟩
  | .hbm, ⟨85, _⟩ => ⟨S_, .f32⟩
  | .hbm, ⟨86, _⟩ => ⟨S50000, .f32⟩
  | .hbm, ⟨87, _⟩ => ⟨S640000x1, .i32⟩
  | .hbm, ⟨88, _⟩ => ⟨S50000, .f32⟩
  | .hbm, ⟨89, _⟩ => ⟨S_, .f32⟩
  | .hbm, ⟨90, _⟩ => ⟨S50000, .f32⟩
  | .hbm, ⟨91, _⟩ => ⟨S50000, .f32⟩
  | .hbm, ⟨92, _⟩ => ⟨S50000x1, .f32⟩
  | .hbm, ⟨93, _⟩ => ⟨S50000x128, .f32⟩
  | .hbm, ⟨94, _⟩ => ⟨S50000x128, .f32⟩
  | .hbm, ⟨95, _⟩ => ⟨S30000x128, .f32⟩
  | .hbm, ⟨96, _⟩ => ⟨S20000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S2560x128, .f32⟩
  | .local _ .vmem, ⟨5, _⟩ => ⟨S2560x128, .f32⟩
  | .local _ .vmem, ⟨6, _⟩ => ⟨S2560x128, .f32⟩
  | .local _ .vmem, ⟨7, _⟩ => ⟨S2560x128, .f32⟩
  | .local _ .vmem, ⟨8, _⟩ => ⟨S2560x128, .f32⟩
  | .local _ .vmem, ⟨9, _⟩ => ⟨S2560x128, .f32⟩
  | _, _ => ⟨S30000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v2 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v3 : Ref sig .tc := ⟨.hbm, 53, rfl⟩
abbrev main_call2_c : Ref sig .tc := ⟨.hbm, 54, rfl⟩
abbrev main_call2_v0 : Ref sig .tc := ⟨.hbm, 55, rfl⟩
abbrev main_call2_v1 : Ref sig .tc := ⟨.hbm, 56, rfl⟩
abbrev main_call2_c_0 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_call2_v5 : Ref sig .tc := ⟨.hbm, 61, rfl⟩
abbrev main_call2_c_1 : Ref sig .tc := ⟨.hbm, 62, rfl⟩
abbrev main_call2_c_2 : Ref sig .tc := ⟨.hbm, 63, rfl⟩
abbrev main_call2_v6 : Ref sig .tc := ⟨.hbm, 64, rfl⟩
abbrev main_call2_v7 : Ref sig .tc := ⟨.hbm, 65, rfl⟩
abbrev main_call2_v8 : Ref sig .tc := ⟨.hbm, 66, rfl⟩
abbrev main_call2_v9 : Ref sig .tc := ⟨.hbm, 67, rfl⟩
abbrev main_call2_v10 : Ref sig .tc := ⟨.hbm, 68, rfl⟩
abbrev main_call2_v11 : Ref sig .tc := ⟨.hbm, 69, rfl⟩
abbrev main_call2_c_3 : Ref sig .tc := ⟨.hbm, 70, rfl⟩
abbrev main_call2_v12 : Ref sig .tc := ⟨.hbm, 71, rfl⟩
abbrev main_call2_v13 : Ref sig .tc := ⟨.hbm, 72, rfl⟩
abbrev main_call2_v14 : Ref sig .tc := ⟨.hbm, 73, rfl⟩
abbrev main_call2_cst : Ref sig .tc := ⟨.hbm, 74, rfl⟩
abbrev main_call2_v15 : Ref sig .tc := ⟨.hbm, 75, rfl⟩
abbrev main_v4 : Ref sig .tc := ⟨.hbm, 76, rfl⟩
abbrev main_v5 : Ref sig .tc := ⟨.hbm, 77, rfl⟩
abbrev main_v6 : Ref sig .tc := ⟨.hbm, 78, rfl⟩
abbrev main_cst : Ref sig .tc := ⟨.hbm, 79, rfl⟩
abbrev main_v7 : Ref sig .tc := ⟨.hbm, 80, rfl⟩
abbrev main_v8 : Ref sig .tc := ⟨.hbm, 81, rfl⟩
abbrev main_v9 : Ref sig .tc := ⟨.hbm, 82, rfl⟩
abbrev main_cst_0 : Ref sig .tc := ⟨.hbm, 83, rfl⟩
abbrev main_v10 : Ref sig .tc := ⟨.hbm, 84, rfl⟩
abbrev main_cst_1 : Ref sig .tc := ⟨.hbm, 85, rfl⟩
abbrev main_v11 : Ref sig .tc := ⟨.hbm, 86, rfl⟩
abbrev main_v12 : Ref sig .tc := ⟨.hbm, 87, rfl⟩
abbrev main_v13 : Ref sig .tc := ⟨.hbm, 88, rfl⟩
abbrev main_cst_2 : Ref sig .tc := ⟨.hbm, 89, rfl⟩
abbrev main_v14 : Ref sig .tc := ⟨.hbm, 90, rfl⟩
abbrev main_v15 : Ref sig .tc := ⟨.hbm, 91, rfl⟩
abbrev main_v16 : Ref sig .tc := ⟨.hbm, 92, rfl⟩
abbrev main_v17 : Ref sig .tc := ⟨.hbm, 93, rfl⟩
abbrev main_v18 : Ref sig .tc := ⟨.hbm, 94, rfl⟩
abbrev main_v19 : Ref sig .tc := ⟨.hbm, 95, rfl⟩
abbrev main_v20 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2560x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2560x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2560x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  concatenates_S30000x128_S20000x128_S50000x128_d0 : Shape.Concatenates [S30000x128, S20000x128] S50000x128 0
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  reduces_S5000x128_S5000 : S5000x128.Reduces [1] S5000
  shapeCasts_S5000_S5000x1 : S5000.ShapeCasts S5000x1
  broadcasts_S5000x1_S5000x128 : S5000x1.Broadcasts S5000x128
  bcast_S_S640000 : S_.BroadcastsInDim S640000 (![] : Fin 0 → Fin S640000.rank)
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  bcast_S640000_S640000x128_0 : S640000.BroadcastsInDim S640000x128 (![0] : Fin 1 → Fin S640000x128.rank)
  bcast_S_S640000x128 : S_.BroadcastsInDim S640000x128 (![] : Fin 0 → Fin S640000x128.rank)
  inb_S2560x128_S2560x128_0_0 : ∀ a, (![0, 0] : Fin 2 → Nat) a + S2560x128.size a ≤ S2560x128.size a
  h_S2560x128 : 0 < S2560x128.numel
  shapeCasts_S2560x128_S2560x128 : S2560x128.ShapeCasts S2560x128
  reduces_S2560x128_S2560 : S2560x128.Reduces [1] S2560
  shapeCasts_S2560_S2560x1 : S2560.ShapeCasts S2560x1
  broadcasts_S2560x1_S2560x128 : S2560x1.Broadcasts S2560x128
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S50000x128_S30000x128_0_0 : S50000x128.Slices ![0, 0] S30000x128
  slices_S50000x128_S20000x128_30000_0 : S50000x128.Slices ![30000, 0] S20000x128
  gather_S50000x128_S640000x1_S640000x128_1_0_n_n_0_1_1128_wf : GatherDims.WF S50000x128 S640000x1 S640000x128 [1] [0] [] [0] [] 1 ![1, 128]
  gather_S16x128_S640000x1_S640000x128_1_0_n_n_0_1_1128_wf : GatherDims.WF S16x128 S640000x1 S640000x128 [1] [0] [] [0] [] 1 ![1, 128]
  scatter_S50000x128_S640000x1_S640000x128_1_0_0_1_wf : ScatterDims.WF S50000x128 S640000x1 S640000x128 [1] [0] [0] 1
  scatter_S50000_S640000x1_S640000_n_0_0_1_wf : ScatterDims.WF S50000 S640000x1 S640000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2560x128.size a ≤ S640000x128.size a
  hwx1_0 : ∀ i : grid1.Coords, EltTy.bits .f32 = 32 ∨ (Rect.block (s := S640000x128) S2560x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2560x128.size a ≤ S640000x128.size a
  hwx1_1 : ∀ i : grid1.Coords, EltTy.bits .f32 = 32 ∨ (Rect.block (s := S640000x128) S2560x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2560x128.size a ≤ S640000x128.size a
  hwx1_2 : ∀ i : grid1.Coords, EltTy.bits .f32 = 32 ∨ (Rect.block (s := S640000x128) S2560x128.size (cc1_transform_2 i) (hinb1_2 i)).WholeWords (EltTy.packing .f32)

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def gather_S16x128_S640000x1_S640000x128_1_0_n_n_0_1_1128 : GatherDims S16x128 S640000x1 S640000x128 where
  offsetDims := [1]
  collapsedSliceDims := [0]
  operandBatchingDims := []
  startIndicesBatchingDims := []
  startIndexMap := [0]
  indexVectorDim := 1
  sliceSizes := ![1, 128]
  wf := gather_S16x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf

abbrev win0_0 : Pipeline.Window sig grid0 :=
  Pipeline.Window.ofSpec (Memref.whole main_v0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S5000x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v2) S2560x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S2560x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S2560x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S30000x128 : Shape := ⟨2, ![30000, 128]⟩
abbrev S20000x128 : Shape := ⟨2, ![20000, 128]⟩
abbrev S16x128 : Shape := ⟨2, ![16, 128]⟩
abbrev S640000 : Shape := ⟨1, ![640000]⟩
abbrev S50000x128 : Shape := ⟨2, ![50000, 128]⟩
abbrev S_ : Shape := ⟨0, ![]⟩
abbrev S50000 : Shape := ⟨1, ![50000]⟩
abbrev S50000x1 : Shape := ⟨2, ![50000, 1]⟩
abbrev S640000x1 : Shape := ⟨2, ![640000, 1]⟩
abbrev S640000x128 : Shape := ⟨2, ![640000, 128]⟩

abbrev nBuf : Space → Nat
  | .hbm => 172
  | .vmem => 0
  | .smem => 0
  | _ => 0

abbrev hbmTy0_0 (i : Nat) : BufTy := match i % 128 with
  | 0 => ⟨S30000x128, .f32⟩
  | 1 => ⟨S20000x128, .f32⟩
  | 2 => ⟨S16x128, .f32⟩
  | 3 => ⟨S640000, .i32⟩
  | 4 => ⟨S640000, .i32⟩
  | 5 => ⟨S640000, .i32⟩
  | 6 => ⟨S50000x128, .f32⟩
  | 7 => ⟨S50000x128, .f32⟩
  | 8 => ⟨S_, .f32⟩
  | 9 => ⟨S50000, .f32⟩
  | 10 => ⟨S50000x1, .f32⟩
  | 11 => ⟨S_, .f32⟩
  | 12 => ⟨S50000x1, .f32⟩
  | 13 => ⟨S50000x1, .f32⟩
  | 14 => ⟨S50000x1, .f32⟩
  | 15 => ⟨S50000x1, .f32⟩
  | 16 => ⟨S50000x128, .f32⟩
  | 17 => ⟨S50000x128, .f32⟩
  | 18 => ⟨S50000x128, .f32⟩
  | 19 => ⟨S50000x128, .f32⟩
  | 20 => ⟨S_, .i32⟩
  | 21 => ⟨S640000, .i32⟩
  | 22 => ⟨S640000, .i1⟩
  | 23 => ⟨S_, .i32⟩
  | 24 => ⟨S640000, .i32⟩
  | 25 => ⟨S640000, .i32⟩
  | 26 => ⟨S640000, .i32⟩
  | 27 => ⟨S640000x1, .i32⟩
  | 28 => ⟨S640000x128, .f32⟩
  | 29 => ⟨S_, .i32⟩
  | 30 => ⟨S640000, .i32⟩
  | 31 => ⟨S640000, .i1⟩
  | 32 => ⟨S_, .i32⟩
  | 33 => ⟨S640000, .i32⟩
  | 34 => ⟨S640000, .i32⟩
  | 35 => ⟨S640000, .i32⟩
  | 36 => ⟨S640000x1, .i32⟩
  | 37 => ⟨S640000x128, .f32⟩
  | 38 => ⟨S_, .i32⟩
  | 39 => ⟨S640000, .i32⟩
  | 40 => ⟨S640000, .i1⟩
  | 41 => ⟨S_, .i32⟩
  | 42 => ⟨S640000, .i32⟩
  | 43 => ⟨S640000, .i32⟩
  | 44 => ⟨S640000, .i32⟩
  | 45 => ⟨S640000x1, .i32⟩
  | 46 => ⟨S640000x128, .f32⟩
  | 47 => ⟨S640000x128, .f32⟩
  | 48 => ⟨S640000x128, .f32⟩
  | 49 => ⟨S_, .f32⟩
  | 50 => ⟨S640000, .f32⟩
  | 51 => ⟨S640000x1, .f32⟩
  | 52 => ⟨S_, .f32⟩
  | 53 => ⟨S640000x1, .f32⟩
  | 54 => ⟨S640000x1, .f32⟩
  | 55 => ⟨S640000x128, .f32⟩
  | 56 => ⟨S640000x128, .f32⟩
  | 57 => ⟨S640000x128, .f32⟩
  | 58 => ⟨S_, .f32⟩
  | 59 => ⟨S640000, .f32⟩
  | 60 => ⟨S640000x1, .f32⟩
  | 61 => ⟨S_, .f32⟩
  | 62 => ⟨S640000x1, .f32⟩
  | 63 => ⟨S640000x1, .f32⟩
  | 64 => ⟨S640000x1, .f32⟩
  | 65 => ⟨S640000x128, .f32⟩
  | 66 => ⟨S_, .f32⟩
  | 67 => ⟨S640000, .f32⟩
  | 68 => ⟨S640000x1, .f32⟩
  | 69 => ⟨S_, .f32⟩
  | 70 => ⟨S640000x1, .f32⟩
  | 71 => ⟨S640000x1, .f32⟩
  | 72 => ⟨S_, .f32⟩
  | 73 => ⟨S640000x1, .f32⟩
  | 74 => ⟨S640000x1, .f32⟩
  | 75 => ⟨S_, .f32⟩
  | 76 => ⟨S640000x1, .f32⟩
  | 77 => ⟨S640000x1, .f32⟩
  | 78 => ⟨S_, .f32⟩
  | 79 => ⟨S640000x1, .f32⟩
  | 80 => ⟨S640000x1, .f32⟩
  | 81 => ⟨S640000x1, .f32⟩
  | 82 => ⟨S640000x1, .f32⟩
  | 83 => ⟨S640000x128, .f32⟩
  | 84 => ⟨S640000x128, .f32⟩
  | 85 => ⟨S640000x128, .f32⟩
  | 86 => ⟨S640000x128, .f32⟩
  | 87 => ⟨S640000x128, .f32⟩
  | 88 => ⟨S_, .f32⟩
  | 89 => ⟨S640000, .f32⟩
  | 90 => ⟨S640000x1, .f32⟩
  | 91 => ⟨S640000x128, .f32⟩
  | 92 => ⟨S_, .f32⟩
  | 93 => ⟨S640000, .f32⟩
  | 94 => ⟨S640000x1, .f32⟩
  | 95 => ⟨S640000x128, .f32⟩
  | 96 => ⟨S_, .f32⟩
  | 97 => ⟨S640000, .f32⟩
  | 98 => ⟨S640000x1, .f32⟩
  | 99 => ⟨S_, .f32⟩
  | 100 => ⟨S640000x1, .f32⟩
  | 101 => ⟨S640000x1, .f32⟩
  | 102 => ⟨S_, .f32⟩
  | 103 => ⟨S640000x1, .f32⟩
  | 104 => ⟨S640000x1, .f32⟩
  | 105 => ⟨S640000x1, .f32⟩
  | 106 => ⟨S640000x128, .f32⟩
  | 107 => ⟨S640000x128, .f32⟩
  | 108 => ⟨S_, .f32⟩
  | 109 => ⟨S640000x1, .f32⟩
  | 110 => ⟨S640000x1, .f32⟩
  | 111 => ⟨S640000x128, .f32⟩
  | 112 => ⟨S640000x128, .f32⟩
  | 113 => ⟨S640000x128, .f32⟩
  | 114 => ⟨S_, .f32⟩
  | 115 => ⟨S640000x1, .f32⟩
  | 116 => ⟨S640000x1, .f32⟩
  | 117 => ⟨S_, .f32⟩
  | 118 => ⟨S640000x1, .f32⟩
  | 119 => ⟨S640000x1, .f32⟩
  | 120 => ⟨S640000x1, .f32⟩
  | 121 => ⟨S640000x1, .f32⟩
  | 122 => ⟨S_, .f32⟩
  | 123 => ⟨S640000x1, .f32⟩
  | 124 => ⟨S640000x1, .f32⟩
  | 125 => ⟨S640000x128, .f32⟩
  | 126 => ⟨S640000x128, .f32⟩
  | 127 => ⟨S640000x128, .f32⟩
  | _ => ⟨S30000x128, .f32⟩

abbrev hbmTy0_1 (i : Nat) : BufTy := match i % 128 with
  | 0 => ⟨S_, .f32⟩
  | 1 => ⟨S640000, .f32⟩
  | 2 => ⟨S640000x1, .f32⟩
  | 3 => ⟨S_, .f32⟩
  | 4 => ⟨S640000x1, .f32⟩
  | 5 => ⟨S640000x1, .f32⟩
  | 6 => ⟨S640000x1, .f32⟩
  | 7 => ⟨S_, .f32⟩
  | 8 => ⟨S_, .f32⟩
  | 9 => ⟨S_, .f32⟩
  | 10 => ⟨S640000x1, .f32⟩
  | 11 => ⟨S640000x1, .f32⟩
  | 12 => ⟨S_, .f32⟩
  | 13 => ⟨S640000x1, .f32⟩
  | 14 => ⟨S640000x1, .f32⟩
  | 15 => ⟨S640000x1, .f32⟩
  | 16 => ⟨S640000x1, .f32⟩
  | 17 => ⟨S640000x1, .f32⟩
  | 18 => ⟨S640000x1, .f32⟩
  | 19 => ⟨S_, .f32⟩
  | 20 => ⟨S640000x1, .f32⟩
  | 21 => ⟨S640000x1, .f32⟩
  | 22 => ⟨S640000x128, .f32⟩
  | 23 => ⟨S640000x128, .f32⟩
  | 24 => ⟨S640000x128, .f32⟩
  | 25 => ⟨S640000x128, .f32⟩
  | 26 => ⟨S_, .f32⟩
  | 27 => ⟨S50000x128, .f32⟩
  | 28 => ⟨S640000x1, .i32⟩
  | 29 => ⟨S50000x128, .f32⟩
  | 30 => ⟨S_, .f32⟩
  | 31 => ⟨S640000, .f32⟩
  | 32 => ⟨S_, .f32⟩
  | 33 => ⟨S50000, .f32⟩
  | 34 => ⟨S640000x1, .i32⟩
  | 35 => ⟨S50000, .f32⟩
  | 36 => ⟨S_, .f32⟩
  | 37 => ⟨S50000, .f32⟩
  | 38 => ⟨S50000, .f32⟩
  | 39 => ⟨S50000x1, .f32⟩
  | 40 => ⟨S50000x128, .f32⟩
  | 41 => ⟨S50000x128, .f32⟩
  | 42 => ⟨S30000x128, .f32⟩
  | 43 => ⟨S20000x128, .f32⟩
  | _ => ⟨S30000x128, .f32⟩

abbrev hbmTy (i : Nat) : BufTy := match i / 128 with
  | 0 => hbmTy0_0 i
  | 1 => hbmTy0_1 i
  | _ => ⟨S30000x128, .f32⟩

abbrev bufTy : (tb : Table) → Fin (tcTables nBuf tb) → BufTy
  | .hbm, ⟨i, _⟩ => hbmTy i
  | _, _ => ⟨S30000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_4 : Ref sig .tc := ⟨.hbm, 38, rfl⟩
abbrev main_v26 : Ref sig .tc := ⟨.hbm, 39, rfl⟩
abbrev main_v27 : Ref sig .tc := ⟨.hbm, 40, rfl⟩
abbrev main_c_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_cst_9 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_10 : Ref sig .tc := ⟨.hbm, 66, rfl⟩
abbrev main_v48 : Ref sig .tc := ⟨.hbm, 67, rfl⟩
abbrev main_v49 : Ref sig .tc := ⟨.hbm, 68, rfl⟩
abbrev main_cst_11 : Ref sig .tc := ⟨.hbm, 69, rfl⟩
abbrev main_v50 : Ref sig .tc := ⟨.hbm, 70, rfl⟩
abbrev main_v51 : Ref sig .tc := ⟨.hbm, 71, rfl⟩
abbrev main_cst_12 : Ref sig .tc := ⟨.hbm, 72, rfl⟩
abbrev main_v52 : Ref sig .tc := ⟨.hbm, 73, rfl⟩
abbrev main_v53 : Ref sig .tc := ⟨.hbm, 74, rfl⟩
abbrev main_cst_13 : Ref sig .tc := ⟨.hbm, 75, rfl⟩
abbrev main_v54 : Ref sig .tc := ⟨.hbm, 76, rfl⟩
abbrev main_v55 : Ref sig .tc := ⟨.hbm, 77, rfl⟩
abbrev main_cst_14 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_15 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_16 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_17 : Ref sig .tc := ⟨.hbm, 96, rfl⟩
abbrev main_v71 : Ref sig .tc := ⟨.hbm, 97, rfl⟩
abbrev main_v72 : Ref sig .tc := ⟨.hbm, 98, rfl⟩
abbrev main_cst_18 : Ref sig .tc := ⟨.hbm, 99, rfl⟩
abbrev main_v73 : Ref sig .tc := ⟨.hbm, 100, rfl⟩
abbrev main_v74 : Ref sig .tc := ⟨.hbm, 101, rfl⟩
abbrev main_cst_19 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_cst_20 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_cst_21 : Ref sig .tc := ⟨.hbm, 114, rfl⟩
abbrev main_v85 : Ref sig .tc := ⟨.hbm, 115, rfl⟩
abbrev main_v86 : Ref sig .tc := ⟨.hbm, 116, rfl⟩
abbrev main_cst_22 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_cst_23 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_cst_24 : Ref sig .tc := ⟨.hbm, 128, rfl⟩
abbrev main_v96 : Ref sig .tc := ⟨.hbm, 129, rfl⟩
abbrev main_v97 : Ref sig .tc := ⟨.hbm, 130, rfl⟩
abbrev main_cst_25 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_cst_26 : Ref sig .tc := ⟨.hbm, 135, rfl⟩
abbrev main_cst_27 : Ref sig .tc := ⟨.hbm, 136, rfl⟩
abbrev main_call0_v0 : Ref sig .tc := ⟨.hbm, 137, rfl⟩
abbrev main_call0_v1 : Ref sig .tc := ⟨.hbm, 138, rfl⟩
abbrev main_call0_v2 : Ref sig .tc := ⟨.hbm, 139, rfl⟩
abbrev main_call0_v3 : Ref sig .tc := ⟨.hbm, 140, rfl⟩
abbrev main_call0_v4 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_cst_28 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_cst_29 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_cst_30 : Ref sig .tc := ⟨.hbm, 158, rfl⟩
abbrev main_v115 : Ref sig .tc := ⟨.hbm, 159, rfl⟩
abbrev main_cst_31 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_cst_32 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩

abbrev nD : Nat := 1
abbrev τ : Topo := Topo.v7x

variable {F : FTy → Type} [FloatOps F]

class Facts₀ : Prop where
  concatenates_S30000x128_S20000x128_S50000x128_d0 : Shape.Concatenates [S30000x128, S20000x128] S50000x128 0
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S_S640000 : S_.BroadcastsInDim S640000 (![] : Fin 0 → Fin S640000.rank)
  bcast_S640000_S640000x1_0 : S640000.BroadcastsInDim S640000x1 (![0] : Fin 1 → Fin S640000x1.rank)
  reducesTo_S640000x128_S640000_d1 : S640000x128.ReducesTo [1] S640000
  bcast_S_S640000x1 : S_.BroadcastsInDim S640000x1 (![] : Fin 0 → Fin S640000x1.rank)
  bcast_S640000x1_S640000x128_0_1 : S640000x1.BroadcastsInDim S640000x128 (![0, 1] : Fin 2 → Fin S640000x128.rank)
  bcast_S_S50000x128 : S_.BroadcastsInDim S50000x128 (![] : Fin 0 → Fin S50000x128.rank)
  bcast_S_S50000 : S_.BroadcastsInDim S50000 (![] : Fin 0 → Fin S50000.rank)
  slices_S50000x128_S30000x128_0_0 : S50000x128.Slices ![0, 0] S30000x128
  slices_S50000x128_S20000x128_30000_0 : S50000x128.Slices ![30000, 0] S20000x128
  gather_S50000x128_S640000x1_S640000x128_1_0_n_n_0_1_1128_wf : GatherDims.WF S50000x128 S640000x1 S640000x128 [1] [0] [] [0] [] 1 ![1, 128]
  gather_S16x128_S640000x1_S640000x128_1_0_n_n_0_1_1128_wf : GatherDims.WF S16x128 S640000x1 S640000x128 [1] [0] [] [0] [] 1 ![1, 128]
  scatter_S50000x128_S640000x1_S640000x128_1_0_0_1_wf : ScatterDims.WF S50000x128 S640000x1 S640000x128 [1] [0] [0] 1
  scatter_S50000_S640000x1_S640000_n_0_0_1_wf : ScatterDims.WF S50000 S640000x1 S640000 [] [0] [0] 1

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def gather_S16x128_S640000x1_S640000x128_1_0_n_n_0_1_1128 : GatherDims S16x128 S640000x1 S640000x128 where
  offsetDims := [1]
  collapsedSliceDims := [0]
  operandBatchingDims := []
  startIndicesBatchingDims := []
  startIndexMap := [0]
  indexVectorDim := 1
  sliceSizes := ![1, 128]
  wf := gather_S16x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf

class Facts : Prop extends Facts₀ where

variable [Facts]
-- ==== Proof.Spec.lean ====
/-
  The mathematics both programs compute, one edge (one row of 128 lanes) at a time, on the extended reals.

  A NODE's row `u` is mapped to the Poincare ball by the exponential map at the origin,
      expRow u = tanh(|u|) * u / |u|,            |u| = sqrt(max(sum_k u_k^2, eps)).
  An EDGE with ball point `x` (the source node's mapped row) and tangent `u` (destination embedding plus relation
  embedding) goes through
      transported  t = u * (1 - |x|^2)                                (parallel transport from the origin to x)
      second       y = tanh(1/2 * (2 / max(1 - |x|^2, eps)) * |t|) * t / |t|
      moved        m = ((1 + 2<x,y> + |y|^2) x + (1 - |x|^2) y) / max(1 + 2<x,y> + |x|^2 |y|^2, eps)   (Mobius addition)
      edgeRow        = artanh(clip |m|) * m / |m|                     (logarithmic map at the origin)
  with artanh z = 1/2 (log1p z - log1p (-z)) and the clip to [lo, hi], the two literals -0.99999988 and 0.99999988 both
  programs print. Every product and sum is written in the order both programs write it, so no law of arithmetic is needed to
  compare either program with these definitions: only that a row sum is a sum over the 128 lanes.
-/
import Idealize.ShloMosaic.PureOps.Ideal
import Idealize.ShloMosaic.Lib.ValueIdx

noncomputable section

open scoped BigOperators

namespace Cert.Spec

open Idealize.ShloMosaic Idealize.ShloMosaic.ValueIdx

/-- One row: 128 lanes of extended reals. -/
abbrev Row := Fin 128 → EReal

/-- The literals of the two programs, as the words they print. -/
abbrev eps : EReal := Ideal.ofBits .f32 0x26901D7D#32
abbrev one : EReal := Ideal.ofBits .f32 0x3F800000#32
abbrev two : EReal := Ideal.ofBits .f32 0x40000000#32
abbrev half : EReal := Ideal.ofBits .f32 0x3F000000#32
abbrev lo : EReal := Ideal.ofBits .f32 0xBF7FFFFE#32
abbrev hi : EReal := Ideal.ofBits .f32 0x3F7FFFFE#32

/-- The squared norm of a row. -/
def sq (x : Row) : EReal := ∑ k, x k * x k
/-- The inner product of two rows. -/
def dot (x y : Row) : EReal := ∑ k, x k * y k
/-- The guarded norm from a squared norm. -/
def nrm (s : EReal) : EReal := Ideal.sqrt (max s eps)

/-- The exponential map at the origin, on one row. -/
def expRow (u : Row) : Row := fun k => Ideal.div (Ideal.tanh (nrm (sq u)) * u k) (nrm (sq u))

/-- Parallel transport of the tangent `u` from the origin to `x`. -/
def transp (x u : Row) : Row := fun k => u k * (one - sq x)
/-- The conformal factor at `x`. -/
def lam (x : Row) : EReal := Ideal.div two (max (one - sq x) eps)
/-- The second operand of the Mobius addition inside the exponential map at `x`. -/
def second (x u : Row) : Row := fun k =>
  Ideal.div (Ideal.tanh (half * lam x * nrm (sq (transp x u))) * transp x u k) (nrm (sq (transp x u)))
/-- Mobius addition, numerator. -/
def mobNum (x y : Row) : Row := fun k => (one + two * dot x y + sq y) * x k + (one - sq x) * y k
/-- Mobius addition, guarded denominator. -/
def mobDen (x y : Row) : EReal := max (one + two * dot x y + sq x * sq y) eps
/-- Mobius addition. -/
def moved (x y : Row) : Row := fun k => Ideal.div (mobNum x y k) (mobDen x y)
/-- The clip of a norm into the open unit interval's closed core. -/
def clipn (s : EReal) : EReal := min hi (max lo s)
/-- The clipped inverse hyperbolic tangent. -/
def artanhc (s : EReal) : EReal := half * (Ideal.log1p (clipn s) - Ideal.log1p (-clipn s))
/-- The logarithmic map at the origin, on one row. -/
def logmap (m : Row) : Row := fun k => Ideal.div (artanhc (nrm (sq m)) * m k) (nrm (sq m))
/-- One edge's result row from its ball point `x` and its tangent `u`. -/
def edgeRow (x u : Row) : Row := logmap (moved x (second x u))

/-- Row `p` of a rank-2 array of 128 columns. -/
abbrev rowOf {n : Nat} (A : (⟨2, ![n, 128]⟩ : Shape).Idx → EReal) (p : Fin n) : Row := fun k => A (ix2 p k)

/-- The exponential map at the origin applied to every row of an array. -/
def expArr {n : Nat} (E : (⟨2, ![n, 128]⟩ : Shape).Idx → EReal) : (⟨2, ![n, 128]⟩ : Shape).Idx → EReal :=
  fun i => expRow (rowOf E (i 0)) (i 1)

/-- The edge transform applied row by row to an array of ball points and an array of tangents. -/
def edgeArr {n : Nat} (X U : (⟨2, ![n, 128]⟩ : Shape).Idx → EReal) : (⟨2, ![n, 128]⟩ : Shape).Idx → EReal :=
  fun i => edgeRow (rowOf X (i 0)) (rowOf U (i 0)) (i 1)

theorem expArr_apply {n : Nat} (E : (⟨2, ![n, 128]⟩ : Shape).Idx → EReal) (p : Fin n) (q : Fin 128) :
    expArr E (ix2 p q) = expRow (rowOf E p) q := rfl

theorem edgeArr_apply {n : Nat} (X U : (⟨2, ![n, 128]⟩ : Shape).Idx → EReal) (p : Fin n) (q : Fin 128) :
    edgeArr X U (ix2 p q) = edgeRow (rowOf X p) (rowOf U p) q := rfl

end Cert.Spec

end
-- ==== Proof.LibRows.lean ====
/-
  Rows of a rank-2 array, read at an index: the three shapes every "sum over the lanes, keep the axis, lay the result
  back along the lanes" computation meets, in a kernel's spelling — a vector cast to a one-column matrix, a one-column
  matrix broadcast along the lanes, and the sum over the lanes of a matrix — and the one-operand float operations of a
  vector read at an index. General in the number of rows; stated at explicit coordinates.
-/
import Idealize.ShloMosaic.Lib.Pipeline.Value
import Idealize.ShloMosaic.Lib.ValueIdx
import Idealize.ShloMosaic.PureOps.Ideal.Laws

noncomputable section

open scoped BigOperators

namespace Cert.LibRows

open Idealize.ShloMosaic Idealize.ShloMosaic.ValueIdx

variable {α : Type}

/-- A vector of `B` entries cast to a `B × 1` column reads, at `(p, z)`, the vector at `p`. -/
theorem shapeCast_col_apply {B : Nat} (v : (⟨1, ![B]⟩ : Shape).Idx → α)
    (h : (⟨1, ![B]⟩ : Shape).ShapeCasts ⟨2, ![B, 1]⟩) (p : Fin B) (z : Fin 1) :
    shapeCast ⟨2, ![B, 1]⟩ v h (ix2 p z) = v (ix1 p) := by
  refine shapeCast_apply v h (ix2 p z) (ix1 p) ?_
  rw [Shape.rowMajor_val_two, Shape.rowMajor_val_one]
  show p.val = p.val * 1 + z.val
  have := z.isLt
  omega

/-- A `B × 1` column broadcast along `n` lanes reads, at `(p, q)`, the column at `(p, 0)`. -/
theorem broadcastTo_col_apply {B n : Nat} (v : (⟨2, ![B, 1]⟩ : Shape).Idx → α)
    (h : (⟨2, ![B, 1]⟩ : Shape).Broadcasts ⟨2, ![B, n]⟩) (p : Fin B) (q : Fin n) :
    broadcastTo ⟨2, ![B, n]⟩ v h (ix2 p q) = v (ix2 p (0 : Fin 1)) := by
  refine broadcastTo_apply v h (ix2 p q) (ix2 p (0 : Fin 1)) ?_
  intro a
  match a with
  | ⟨0, _⟩ =>
    show p.val = if B = 1 then 0 else p.val
    split
    · have := p.isLt; omega
    · rfl
  | ⟨1, _⟩ =>
    show (0 : ℕ) = if (1 : ℕ) = 1 then 0 else _
    simp

/-- The sum over the lanes of a `B × n` matrix of extended reals, as a kernel spells it (a reduction over axis 1 into
    the neutral zero), reads at `p` the sum over the lanes of row `p`. -/
theorem rowSum_apply {B n : Nat} (v : FVec Ideal ⟨2, ![B, n]⟩ .f32)
    (h : (⟨2, ![B, n]⟩ : Shape).Reduces [1] ⟨1, ![B]⟩) (hφ : FKind.Formats .f32)
    (hacc : (0x00000000#32 : BitVec FTy.f32.bits) = FKind.add.neutral .f32 hφ) (p : Fin B) :
    multiReduction .add [1] ⟨1, ![B]⟩ v 0x00000000#32 h hφ hacc (ix1 p) = ∑ k : Fin n, v (ix2 p k) := by
  refine (Ideal.multiReduction_add_single v 0x00000000#32 h hφ hacc (ix1 p)).trans ?_
  refine Finset.sum_congr rfl fun k _ => congrArg v ?_
  funext a
  match a with
  | ⟨0, _⟩ => rfl
  | ⟨1, _⟩ => rfl

/-- The one-operand float operations of a vector, at an index. -/
theorem sqrt_apply {s : Shape} (a : FVec Ideal s .f32) (i : s.Idx) : sqrt a i = Ideal.sqrt (a i) := rfl
theorem tanh_apply {s : Shape} (a : FVec Ideal s .f32) (i : s.Idx) : tanh a i = Ideal.tanh (a i) := rfl
theorem log1p_apply {s : Shape} (a : FVec Ideal s .f32) (i : s.Idx) : log1p a i = Ideal.log1p (a i) := rfl

end Cert.LibRows

end
-- ==== Proof.KernelRows.lean ====
/-
  The two kernel bodies, read one element at a time.

  A grid point of the first kernel holds a block of 5000 node rows and stores, at row `p` and lane `q`, the exponential
  map of row `p` at lane `q`; a grid point of the second holds 2560 edges' ball points and tangents and stores the edge
  transform of row `p` at lane `q`. Each row sum of a body (a reduction over the lanes kept as a one-column matrix
  and laid back along the lanes) is the sum over the 128 lanes of that row; every other operation is lane by lane.
-/
import proofs.«419911_j72516227826099_1_alg».proof.Proof.Gen.KernelIdeal.Skeleton
import proofs.«419911_j72516227826099_1_alg».proof.Proof.Spec
import proofs.«419911_j72516227826099_1_alg».proof.Proof.LibRows

noncomputable section

open scoped BigOperators

namespace Cert.KernelRows

open Idealize.ShloMosaic Idealize.ShloMosaic.ValueIdx Cert.KernelIdeal Cert.KernelIdeal.Gen Cert.Spec Cert.LibRows

/-- The sum over the lanes with the accumulator's evidence spelt as the printed bodies carry it. -/
theorem rowSum_at {B n : Nat} (v : FVec Ideal ⟨2, ![B, n]⟩ .f32)
    (h : (⟨2, ![B, n]⟩ : Shape).Reduces [1] ⟨1, ![B]⟩) (hφ : FKind.Formats .f32)
    (hacc : (0x00000000#32 : BitVec 32) = 0x00000000#32) (p : Fin B) :
    multiReduction .add [1] ⟨1, ![B]⟩ v 0x00000000#32 h hφ hacc (ix1 p) = ∑ k : Fin n, v (ix2 p k) :=
  rowSum_apply v h hφ hacc p

/-- The first kernel's stored value at row `p`, lane `q` of a block: the exponential map of the block's row `p`. -/
theorem node_pay_apply (x0 : FVec Ideal S5000x128 .f32) (p : Fin 5000) (q : Fin 128) :
    k0_pay1 (F := Ideal) x0 (ix2 p q) = expRow (rowOf x0 p) q := by
  unfold k0_pay1
  simp only [shapeCast_self, divf_apply, mulf_apply, broadcastTo_col_apply, shapeCast_col_apply,
    maximumf_apply, sqrt_apply, tanh_apply, broadcast_apply]
  have hs := rowSum_at (B := 5000) (n := 128) (mulf x0 x0) reduces_S5000x128_S5000 (.inl rfl) rfl p
  rw [hs]
  rfl

/-- The first payload of the second kernel is its first input block. -/
theorem edge_pay2_eq (x0 : FVec Ideal S2560x128 .f32) : k1_pay2 (F := Ideal) x0 = x0 := by
  unfold k1_pay2
  simp only [shapeCast_self]

/-- The kept row sum of squares of the first block: at row `p` the squared norm of that row. -/
theorem edge_pay3_apply (x0 : FVec Ideal S2560x128 .f32) (p : Fin 2560) (z : Fin 1) :
    k1_pay3 (F := Ideal) x0 (ix2 p z) = Spec.sq (rowOf x0 p) := by
  unfold k1_pay3
  simp only [shapeCast_col_apply]
  have hs := rowSum_at (B := 2560) (n := 128) (mulf (k1_pay2 x0) (k1_pay2 x0)) reduces_S2560x128_S2560 (.inl rfl) rfl p
  rw [hs]
  simp only [edge_pay2_eq, mulf_apply]
  rfl

/-- The second operand of the Mobius addition, at row `p` and lane `q`. -/
theorem edge_pay4_apply (x0 x1 : FVec Ideal S2560x128 .f32) (p : Fin 2560) (q : Fin 128) :
    k1_pay4 (F := Ideal) x0 x1 (ix2 p q) = second (rowOf x0 p) (rowOf x1 p) q := by
  unfold k1_pay4
  simp only [shapeCast_self, divf_apply, mulf_apply, addf_apply, subf_apply, maximumf_apply, minimumf_apply,
    broadcastTo_col_apply, shapeCast_col_apply, sqrt_apply, tanh_apply, log1p_apply, broadcast_apply]
  have hs := fun v => rowSum_at (B := 2560) (n := 128) v reduces_S2560x128_S2560 (.inl rfl) rfl p
  rw [hs]
  simp only [mulf_apply, subf_apply, broadcastTo_col_apply, broadcast_apply, edge_pay3_apply]
  rfl

/-- The kept squared norm of the second operand, at row `p`. -/
theorem edge_pay5_apply (x0 x1 : FVec Ideal S2560x128 .f32) (p : Fin 2560) (z : Fin 1) :
    k1_pay5 (F := Ideal) x0 x1 (ix2 p z) = Spec.sq (second (rowOf x0 p) (rowOf x1 p)) := by
  unfold k1_pay5
  simp only [shapeCast_col_apply]
  have hs := fun v => rowSum_at (B := 2560) (n := 128) v reduces_S2560x128_S2560 (.inl rfl) rfl p
  rw [hs]
  simp only [mulf_apply, edge_pay4_apply]
  rfl

/-- The kept inner product of the ball point with the second operand, at row `p`. -/
theorem edge_pay6_apply (x0 x1 : FVec Ideal S2560x128 .f32) (p : Fin 2560) (z : Fin 1) :
    k1_pay6 (F := Ideal) x0 x1 (ix2 p z) = dot (rowOf x0 p) (second (rowOf x0 p) (rowOf x1 p)) := by
  unfold k1_pay6
  simp only [shapeCast_col_apply]
  have hs := fun v => rowSum_at (B := 2560) (n := 128) v reduces_S2560x128_S2560 (.inl rfl) rfl p
  rw [hs]
  simp only [mulf_apply, edge_pay2_eq, edge_pay4_apply]
  rfl

/-- The coefficient of the ball point in the numerator of the Mobius addition, laid along the lanes. -/
theorem edge_pay7_apply (x0 x1 : FVec Ideal S2560x128 .f32) (p : Fin 2560) (q : Fin 128) :
    k1_pay7 (F := Ideal) x0 x1 (ix2 p q)
      = one + two * dot (rowOf x0 p) (second (rowOf x0 p) (rowOf x1 p)) + Spec.sq (second (rowOf x0 p) (rowOf x1 p)) := by
  unfold k1_pay7
  simp only [broadcastTo_col_apply, addf_apply, mulf_apply, broadcast_apply, edge_pay5_apply, edge_pay6_apply]
  rfl

/-- The last payload at arbitrary operands: the logarithmic map of the row whose lane `k` is the guarded quotient
    the body forms from its operands' rows `p`. The body negates by subtracting from zero. -/
theorem edge_pay1_apply (v1 : FVec Ideal S2560x128 .f32) (v6 : FVec Ideal S2560x1 .f32) (v30 : FVec Ideal S2560x128 .f32)
    (v33 v36 : FVec Ideal S2560x1 .f32) (v42 : FVec Ideal S2560x128 .f32) (p : Fin 2560) (q : Fin 128) :
    k1_pay1 (F := Ideal) v1 v6 v30 v33 v36 v42 (ix2 p q)
      = logmap (fun k => Ideal.div
          (v42 (ix2 p k) * v1 (ix2 p k) + (one - v6 (ix2 p (0 : Fin 1))) * v30 (ix2 p k))
          (max (one + two * v36 (ix2 p (0 : Fin 1)) + v6 (ix2 p (0 : Fin 1)) * v33 (ix2 p (0 : Fin 1))) eps)) q := by
  unfold k1_pay1
  simp only [shapeCast_self, divf_apply, mulf_apply, addf_apply, subf_apply, maximumf_apply, minimumf_apply,
    broadcastTo_col_apply, shapeCast_col_apply, sqrt_apply, tanh_apply, log1p_apply, broadcast_apply]
  have hs := fun v => rowSum_at (B := 2560) (n := 128) v reduces_S2560x128_S2560 (.inl rfl) rfl p
  rw [hs]
  simp only [divf_apply, mulf_apply, addf_apply, subf_apply, maximumf_apply, broadcastTo_col_apply, broadcast_apply,
    Ideal.ofBits_def, Ideal.ofBits_zero_f32, zero_sub]
  rfl

/-- The second kernel's stored value at row `p`, lane `q` of a block: the edge transform of the two blocks' rows `p`. -/
theorem edge_pay_apply (x0 x1 : FVec Ideal S2560x128 .f32) (p : Fin 2560) (q : Fin 128) :
    k1_pay1 (F := Ideal) (k1_pay2 x0) (k1_pay3 x0) (k1_pay4 x0 x1) (k1_pay5 x0 x1) (k1_pay6 x0 x1) (k1_pay7 x0 x1) (ix2 p q)
      = edgeRow (rowOf x0 p) (rowOf x1 p) q := by
  rw [edge_pay1_apply]
  simp only [edge_pay2_eq, edge_pay3_apply, edge_pay4_apply, edge_pay5_apply, edge_pay6_apply, edge_pay7_apply]
  rfl

end Cert.KernelRows

end
-- ==== Proof.Blocks.lean ====
/-
  From blocks to arrays. Grid point `t` of the first region writes back rows [5000 t, 5000 t + 5000) of the node array,
  each the exponential map of the same row of the region's input array; grid point `t` of the second writes back edges
  [2560 t, 2560 t + 2560), each the edge transform of the same rows of its two input arrays. The blocks tile the arrays,
  so after each region its output array is the row-wise function of its input arrays as the region found them.
-/
import proofs.«419911_j72516227826099_1_alg».proof.Proof.Gen.KernelIdeal.Frame
import proofs.«419911_j72516227826099_1_alg».proof.Proof.KernelRows
import Idealize.ShloMosaic.Lib.Pipeline.Value

set_option maxRecDepth 16384

noncomputable section

namespace Cert.KernelIdeal.Blocks

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Spec

variable (V : (c : Dev nD) → (b : Ref sig .tc) → Buf (Elt Ideal) ((c : Thread nD τ).loc b))

/-- The zero offset of a whole-buffer store, as a constant function. -/
theorem zero_offset : (![0, 0] : Fin 2 → Nat) = fun _ => 0 := funext fun a => by fin_cases a <;> rfl

/-! ## The node array: grid point `t` holds rows [5000 t, 5000 t + 5000) -/

/-- Both windows of the first region sit at block `(t, 0)` at grid point `t`. -/
theorem node_idx : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Row `p` of the input block at grid point `t` is row `5000 t + p` of the input array. -/
theorem node_block_read (c : Dev nD) (t : Fin cfg0.N) (p : Fin 5000) (k : Fin 128) (h : t.val * 5000 + p.val < 50000) :
    iblk0 V c 0 t (ix2 p k) = V c main_v0 (ix2 ⟨t.val * 5000 + p.val, h⟩ k) := by
  show V c main_v0 (((cfg0.win 0).blk t).view.emb (ix2 p k)) = V c main_v0 _
  refine congrArg _ ?_
  funext a; apply Fin.ext
  obtain ⟨e0, e1, e2, e3⟩ := node_idx t
  match a with
  | ⟨0, _⟩ => show win0_0.index t (0 : Fin 2) * 5000 + 1 * p.val = t.val * 5000 + p.val; omega
  | ⟨1, _⟩ => show win0_0.index t (1 : Fin 2) * 128 + 1 * k.val = k.val; omega

/-- What grid point `t` writes back is block `t` of the exponential map of every row of the input array: the stored row `p`
    is the exponential map of the block's row `p`, which is the array's row `5000 t + p`, where the output block puts it. -/
theorem node_flushed (c : Dev nD) (t : Fin cfg0.N) :
    (dat0 (F := Ideal) V c).flushed 1 t = ((cfg0.win 1).blk t).view.read (Elt Ideal) (expArr (n := 50000) (V c main_v0)) := by
  show (cfg0.win 1).cut (grid0.coords t) ((dat0 (F := Ideal) V c).after 1 t) = _
  rw [after0_1]
  unfold out0_1
  rw [View.canon_unit_zero zero_offset]
  simp only [View.ld_unit_zero (S := S5000x128) zero_offset]
  funext j
  obtain ⟨p, q, rfl⟩ : ∃ (p : Fin 5000) (q : Fin 128), j = ix2 p q := ⟨j 0, j 1, eq_ix2 j⟩
  have hN : cfg0.N = 10 := Gen.N_0
  have ht : t.val < 10 := hN ▸ t.isLt
  have hrow : t.val * 5000 + p.val < 50000 := by have := p.isLt; omega
  obtain ⟨e0, e1, e2, e3⟩ := node_idx t
  have hemb : ((cfg0.win 1).blk t).view.emb (ix2 p q) = ix2 ⟨t.val * 5000 + p.val, hrow⟩ q := by
    funext a; apply Fin.ext
    match a with
    | ⟨0, _⟩ => show win0_1.index t (0 : Fin 2) * 5000 + 1 * p.val = t.val * 5000 + p.val; omega
    | ⟨1, _⟩ => show win0_1.index t (1 : Fin 2) * 128 + 1 * q.val = q.val; omega
  show k0_pay1 (F := Ideal) (iblk0 V c 0 t) (ix2 p q) = expArr (n := 50000) (V c main_v0) (((cfg0.win 1).blk t).view.emb (ix2 p q))
  rw [hemb, expArr_apply, Cert.KernelRows.node_pay_apply]
  exact congrArg (fun r => expRow r q) (funext fun k => node_block_read V c t p k hrow)

/-- An index of the node array is in grid point `t`'s output block iff each coordinate is in the block's range on its axis. -/
theorem node_mem_blk (t : Fin cfg0.N) (i : S50000x128.Idx) :
    i ∈ ((cfg0.win 1).blk t).view.set ↔ ∀ a : Fin 2, win0_1.index t a * S5000x128.size a ≤ (i a).val ∧ (i a).val < win0_1.index t a * S5000x128.size a + S5000x128.size a := by
  show i ∈ ((View.whole main_v1).slice (win0_1.rect t)).set ↔ _
  rw [View.set_slice_whole, Rect.mem_set_unit]
  exact Iff.rfl

/-- Every index of the node array is in some grid point's output block: row `r` is in the block of point `r / 5000`. -/
theorem node_cover (i : S50000x128.Idx) :
    ∃ t : Fin cfg0.N, (cfg0.win 1).flush t = true ∧ i ∈ ((cfg0.win 1).blk t).view.set := by
  have hN : cfg0.N = 10 := Gen.N_0
  have hi0 : (i 0).val < 50000 := (i 0).isLt
  have hi1 : (i 1).val < 128 := (i 1).isLt
  have htlt : (i 0).val / 5000 < cfg0.N := by rw [hN]; omega
  refine ⟨⟨(i 0).val / 5000, htlt⟩, flush0_1 _, ?_⟩
  rw [node_mem_blk]
  obtain ⟨e0, e1, e2, e3⟩ := node_idx ⟨(i 0).val / 5000, htlt⟩
  intro a
  match a with
  | ⟨0, _⟩ => show win0_1.index ⟨(i 0).val / 5000, htlt⟩ (0 : Fin 2) * 5000 ≤ (i 0).val ∧ (i 0).val < win0_1.index ⟨(i 0).val / 5000, htlt⟩ (0 : Fin 2) * 5000 + 5000; rw [e2]; show (i 0).val / 5000 * 5000 ≤ (i 0).val ∧ (i 0).val < (i 0).val / 5000 * 5000 + 5000; omega
  | ⟨1, _⟩ => show win0_1.index ⟨(i 0).val / 5000, htlt⟩ (1 : Fin 2) * 128 ≤ (i 1).val ∧ (i 1).val < win0_1.index ⟨(i 0).val / 5000, htlt⟩ (1 : Fin 2) * 128 + 128; rw [e3]; omega

/-- After the first region the node array is the exponential map of every row of the region's input array. -/
theorem final0 (c : Dev nD) :
    (dat0 (F := Ideal) V c).arrAt 1 cfg0.N = expArr (n := 50000) (V c main_v0) :=
  (dat0 (F := Ideal) V c).arrAt_eq_of_cover 1 (expArr (n := 50000) (V c main_v0)) (fun t _ => node_flushed V c t) node_cover

/-! ## The per-edge array: grid point `t` holds edges [2560 t, 2560 t + 2560) -/

/-- All three windows of the second region sit at block `(t, 0)` at grid point `t`. -/
theorem edge_idx : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- Row `p` of the ball points' block at grid point `t` is row `2560 t + p` of the ball points' array. -/
theorem edge_block_read0 (c : Dev nD) (t : Fin cfg1.N) (p : Fin 2560) (k : Fin 128) (h : t.val * 2560 + p.val < 640000) :
    iblk1 V c 0 t (ix2 p k) = V c main_v2 (ix2 ⟨t.val * 2560 + p.val, h⟩ k) := by
  show V c main_v2 (((cfg1.win 0).blk t).view.emb (ix2 p k)) = V c main_v2 _
  refine congrArg _ ?_
  funext a; apply Fin.ext
  obtain ⟨e0, e1, e2, e3, e4, e5⟩ := edge_idx t
  match a with
  | ⟨0, _⟩ => show win1_0.index t (0 : Fin 2) * 2560 + 1 * p.val = t.val * 2560 + p.val; omega
  | ⟨1, _⟩ => show win1_0.index t (1 : Fin 2) * 128 + 1 * k.val = k.val; omega

/-- Row `p` of the tangents' block at grid point `t` is row `2560 t + p` of the tangents' array. -/
theorem edge_block_read1 (c : Dev nD) (t : Fin cfg1.N) (p : Fin 2560) (k : Fin 128) (h : t.val * 2560 + p.val < 640000) :
    iblk1 V c 1 t (ix2 p k) = V c main_v5 (ix2 ⟨t.val * 2560 + p.val, h⟩ k) := by
  show V c main_v5 (((cfg1.win 1).blk t).view.emb (ix2 p k)) = V c main_v5 _
  refine congrArg _ ?_
  funext a; apply Fin.ext
  obtain ⟨e0, e1, e2, e3, e4, e5⟩ := edge_idx t
  match a with
  | ⟨0, _⟩ => show win1_1.index t (0 : Fin 2) * 2560 + 1 * p.val = t.val * 2560 + p.val; omega
  | ⟨1, _⟩ => show win1_1.index t (1 : Fin 2) * 128 + 1 * k.val = k.val; omega

/-- What grid point `t` writes back is block `t` of the row-wise edge transform of the two input arrays: the stored row `p`
    is the edge transform of the two blocks' rows `p`, which are the arrays' rows `2560 t + p`, where the output block puts it. -/
theorem edge_flushed (c : Dev nD) (t : Fin cfg1.N) :
    (dat1 (F := Ideal) V c).flushed 2 t
      = ((cfg1.win 2).blk t).view.read (Elt Ideal) (edgeArr (n := 640000) (V c main_v2) (V c main_v5)) := by
  show (cfg1.win 2).cut (grid1.coords t) ((dat1 (F := Ideal) V c).after 2 t) = _
  rw [after1_2]
  unfold out1_2
  rw [View.canon_unit_zero zero_offset]
  simp only [View.ld_unit_zero (S := S2560x128) zero_offset]
  funext j
  obtain ⟨p, q, rfl⟩ : ∃ (p : Fin 2560) (q : Fin 128), j = ix2 p q := ⟨j 0, j 1, eq_ix2 j⟩
  have hN : cfg1.N = 250 := Gen.N_1
  have ht : t.val < 250 := hN ▸ t.isLt
  have hrow : t.val * 2560 + p.val < 640000 := by have := p.isLt; omega
  obtain ⟨e0, e1, e2, e3, e4, e5⟩ := edge_idx t
  have hemb : ((cfg1.win 2).blk t).view.emb (ix2 p q) = ix2 ⟨t.val * 2560 + p.val, hrow⟩ q := by
    funext a; apply Fin.ext
    match a with
    | ⟨0, _⟩ => show win1_2.index t (0 : Fin 2) * 2560 + 1 * p.val = t.val * 2560 + p.val; omega
    | ⟨1, _⟩ => show win1_2.index t (1 : Fin 2) * 128 + 1 * q.val = q.val; omega
  show k1_pay1 (F := Ideal) (k1_pay2 (iblk1 V c 0 t)) (k1_pay3 (iblk1 V c 0 t)) (k1_pay4 (iblk1 V c 0 t) (iblk1 V c 1 t))
      (k1_pay5 (iblk1 V c 0 t) (iblk1 V c 1 t)) (k1_pay6 (iblk1 V c 0 t) (iblk1 V c 1 t)) (k1_pay7 (iblk1 V c 0 t) (iblk1 V c 1 t)) (ix2 p q)
    = edgeArr (n := 640000) (V c main_v2) (V c main_v5) (((cfg1.win 2).blk t).view.emb (ix2 p q))
  rw [hemb, edgeArr_apply, Cert.KernelRows.edge_pay_apply]
  have r0 : rowOf (iblk1 V c 0 t) p = rowOf (V c main_v2) ⟨t.val * 2560 + p.val, hrow⟩ :=
    funext fun k => edge_block_read0 V c t p k hrow
  have r1 : rowOf (iblk1 V c 1 t) p = rowOf (V c main_v5) ⟨t.val * 2560 + p.val, hrow⟩ :=
    funext fun k => edge_block_read1 V c t p k hrow
  rw [r0, r1]

/-- An index of the per-edge array is in grid point `t`'s output block iff each coordinate is in the block's range on its axis. -/
theorem edge_mem_blk (t : Fin cfg1.N) (i : S640000x128.Idx) :
    i ∈ ((cfg1.win 2).blk t).view.set ↔ ∀ a : Fin 2, win1_2.index t a * S2560x128.size a ≤ (i a).val ∧ (i a).val < win1_2.index t a * S2560x128.size a + S2560x128.size a := by
  show i ∈ ((View.whole main_v6).slice (win1_2.rect t)).set ↔ _
  rw [View.set_slice_whole, Rect.mem_set_unit]
  exact Iff.rfl

/-- Every index of the per-edge array is in some grid point's output block: edge `r` is in the block of point `r / 2560`. -/
theorem edge_cover (i : S640000x128.Idx) :
    ∃ t : Fin cfg1.N, (cfg1.win 2).flush t = true ∧ i ∈ ((cfg1.win 2).blk t).view.set := by
  have hN : cfg1.N = 250 := Gen.N_1
  have hi0 : (i 0).val < 640000 := (i 0).isLt
  have hi1 : (i 1).val < 128 := (i 1).isLt
  have htlt : (i 0).val / 2560 < cfg1.N := by rw [hN]; omega
  refine ⟨⟨(i 0).val / 2560, htlt⟩, flush1_2 _, ?_⟩
  rw [edge_mem_blk]
  obtain ⟨e0, e1, e2, e3, e4, e5⟩ := edge_idx ⟨(i 0).val / 2560, htlt⟩
  intro a
  match a with
  | ⟨0, _⟩ => show win1_2.index ⟨(i 0).val / 2560, htlt⟩ (0 : Fin 2) * 2560 ≤ (i 0).val ∧ (i 0).val < win1_2.index ⟨(i 0).val / 2560, htlt⟩ (0 : Fin 2) * 2560 + 2560; rw [e4]; show (i 0).val / 2560 * 2560 ≤ (i 0).val ∧ (i 0).val < (i 0).val / 2560 * 2560 + 2560; omega
  | ⟨1, _⟩ => show win1_2.index ⟨(i 0).val / 2560, htlt⟩ (1 : Fin 2) * 128 ≤ (i 1).val ∧ (i 1).val < win1_2.index ⟨(i 0).val / 2560, htlt⟩ (1 : Fin 2) * 128 + 128; rw [e5]; omega

/-- After the second region the per-edge array is the edge transform, row by row, of the region's two input arrays. -/
theorem final1 (c : Dev nD) :
    (dat1 (F := Ideal) V c).arrAt 2 cfg1.N = edgeArr (n := 640000) (V c main_v2) (V c main_v5) :=
  (dat1 (F := Ideal) V c).arrAt_eq_of_cover 2 (edgeArr (n := 640000) (V c main_v2) (V c main_v5)) (fun t _ => edge_flushed V c t) edge_cover

end Cert.KernelIdeal.Blocks

end
-- ==== Proof.Take.lean ====
/-
  An index into a table of `n` rows, as both programs normalize it, and the kernel program's guarded read.

  Both programs turn an index word `i` into `i + n` when `i` is negative (signed) and read the table at the result.
  The kernel program also tests the normalized word against `0 ≤ · ≤ n - 1` and replaces the whole row by a filler where
  the test fails. For `-n ≤ i < n` the normalized word is in `[0, n - 1]`, the test passes, and the guarded read is the
  plain read: the two programs read the same row.
-/
import proofs.«419911_j72516227826099_1_alg».proof.KernelIdeal
import Idealize.ShloMosaic.Lib.Pipeline.Value
import Idealize.ShloMosaic.Lib.ValueIdx
import Idealize.ShloMosaic.Lib.Affine
import Idealize.ShloMosaic.Lib.StableHlo.Predicate

noncomputable section

namespace Cert.Take

open Idealize.ShloMosaic Idealize.ShloMosaic.ValueIdx

/-! ## Words -/

/-- The normalized index word: `i + n` for a negative `i`, else `i`. -/
def normWord (n i : BitVec 32) : BitVec 32 := Scalar.select (IntOp.cmpi .slt i 0#32) (IntOp.addi i n) i

/-- For `-n ≤ i < n` (signed, `n` small) the normalized word is in `[0, n - 1]`. -/
theorem normWord_range (n : Nat) (hn : n < 2 ^ 30) (i : BitVec 32) (h1 : -(n : Int) ≤ i.toInt) (h2 : i.toInt < n) :
    0 ≤ (normWord (BitVec.ofNat 32 n) i).toInt ∧ (normWord (BitVec.ofNat 32 n) i).toInt ≤ (n : Int) - 1 := by
  unfold normWord
  by_cases hneg : i.toInt < 0
  · have hc : IntOp.cmpi .slt i 0#32 = 1#1 := IntOp.cmpi_slt.mpr (by simpa using hneg)
    rw [hc, select_one]
    have hadd : (IntOp.addi i (BitVec.ofNat 32 n)).toInt = i.toInt + n := by
      unfold IntOp.addi
      have h30 : (2 : Nat) ^ 30 = 1073741824 := by norm_num
      rw [BitVec.toInt_add, StableHlo.Predicate.toInt_ofNat_small n (by omega), Int.bmod_def]
      norm_num
      omega
    rw [hadd]; omega
  · have hc : IntOp.cmpi .slt i 0#32 = 0#1 :=
      eq_zero_of_ne_one (fun h => hneg (by simpa using IntOp.cmpi_slt.mp h))
    rw [hc, select_zero]
    omega

/-! ## A conjunction over one element -/

/-- A left fold by `and` from 1 over 1s is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    have ha : f a = 1#1 := h a List.mem_cons_self
    have h11 : IntOp.andi (1#1) (1#1) = (1#1 : BitVec 1) := by decide
    rw [List.foldl_cons, ha, h11]
    exact foldl_andi_one f l fun n hn => h n (List.mem_cons_of_mem _ hn)

/-- A host reduction by `and` from 1 is 1 at `j` when every element that reduces into `j` is 1. -/
theorem reduce_andi_one_of_all {s t u : Shape} {axes : List (Fin s.rank)} (x : s.Idx → BitVec 1) (init : u.Idx → BitVec 1)
    (h : s.ReducesTo axes t) (hu : 0 < u.numel) (j : t.Idx) (hinit : init (Shape.Idx.first hu) = 1#1)
    (hall : ∀ i : s.Idx, h.drop i = j → x i = 1#1) : Host.reduce IntOp.andi x init h hu j = 1#1 := by
  unfold Host.reduce
  rw [hinit]
  refine foldl_andi_one (fun n => x (s.rowMajor.symm n)) _ fun n hn => hall _ ?_
  exact of_decide_eq_true (List.mem_filter.mp hn).2

/-! ## The kernel program's guarded read of a table by 640000 index words -/

section Guarded

open Cert.KernelIdeal Cert.KernelIdeal.Facts₀

variable [Cert.KernelIdeal.Facts]

/-- The normalized index words as a one-column matrix (the start indices of the read). -/
def nidx (nw : BitVec 32) (idx : IVec S640000 32) : IVec S640000x1 32 :=
  broadcastInDim S640000x1 ![0] bcast_S640000_S640000x1_0
    (select (cmpi .slt idx (broadcastInDim S640000 ![] bcast_S_S640000 (constantI S_ 32 0#32)))
      (addi idx (broadcastInDim S640000 ![] bcast_S_S640000 (constantI S_ 32 nw))) idx)

/-- The range test `0 ≤ · ≤ hi` of each start index, laid along the 128 lanes of its row. -/
def inb (hi : BitVec 32) (I : IVec S640000x1 32) : IVec S640000x128 1 :=
  broadcastInDim S640000x128 ![0] bcast_S640000_S640000x128_0
    (Host.reduce IntOp.andi
      (andi (cmpi .sge I (broadcastInDim S640000x1 ![] bcast_S_S640000x1 (constantI S_ 32 0#32)))
        (cmpi .sle I (broadcastInDim S640000x1 ![0, 1] bcast_S1x1_S640000x1_0_1
          (broadcastInDim S1x1 ![1] bcast_S1_S1x1_1 (constantI S1 32 hi)))))
      (constantI S_ 1 1#1) reducesTo_S640000x1_S640000_d1 h_S_)

/-- The filler of a row whose index fails the test. -/
def filler : FVec Ideal S640000x128 .f32 :=
  broadcastInDim S640000x128 ![] bcast_S_S640000x128 (constant S_ .f32 0x7FC00000#32)

/-- The guarded read: the table's rows at the normalized indices where the test passes, the filler elsewhere. -/
def takeFill {T : Shape} (d : GatherDims T S640000x1 S640000x128) (nw hi : BitVec 32) (tbl : FVec Ideal T .f32)
    (idx : IVec S640000 32) : FVec Ideal S640000x128 .f32 :=
  select (inb hi (nidx nw idx)) (Host.gather d tbl (nidx nw idx)) filler

/-- The start index of row `e` is the normalized word of index `e`. -/
theorem nidx_apply (nw : BitVec 32) (idx : IVec S640000 32) (e : Fin 640000) (z : Fin 1) :
    nidx nw idx (ix2 e z) = normWord nw (idx (ix1 e)) := by
  unfold nidx
  refine (broadcastInDim_apply _ bcast_S640000_S640000x1_0 _ (ix2 e z) (ix1 e) (fun a => ?_)).trans rfl
  match a with
  | ⟨0, _⟩ => show e.val = if (640000 : Nat) = 1 then 0 else e.val; rw [if_neg (by decide)]

/-- Where `-n ≤ idx e < n` the range test of row `e` passes on every lane. -/
theorem inb_apply_of_range (n : Nat) (hn : n < 2 ^ 30) (nw hi : BitVec 32) (hnw : nw = BitVec.ofNat 32 n)
    (hhi : hi.toInt = (n : Int) - 1) (idx : IVec S640000 32) (e : Fin 640000) (k : Fin 128)
    (h1 : -(n : Int) ≤ (idx (ix1 e)).toInt) (h2 : (idx (ix1 e)).toInt < n) :
    inb hi (nidx nw idx) (ix2 e k) = 1#1 := by
  unfold inb
  refine (broadcastInDim_apply _ bcast_S640000_S640000x128_0 _ (ix2 e k) (ix1 e) (fun a => ?_)).trans ?_
  · match a with
    | ⟨0, _⟩ => show e.val = if (640000 : Nat) = 1 then 0 else e.val; rw [if_neg (by decide)]
  refine reduce_andi_one_of_all _ _ _ _ _ rfl fun i hi' => ?_
  obtain ⟨e', z, rfl⟩ : ∃ (e' : Fin 640000) (z : Fin 1), i = ix2 e' z := ⟨i 0, i 1, eq_ix2 i⟩
  have he : e' = e := by
    have := congrFun hi' 0
    exact Fin.ext (congrArg Fin.val this)
  subst he
  have hr := normWord_range n hn (idx (ix1 e')) h1 h2
  rw [← hnw] at hr
  show IntOp.andi (IntOp.cmpi .sge (nidx nw idx (ix2 e' z)) 0#32) (IntOp.cmpi .sle (nidx nw idx (ix2 e' z)) hi) = 1#1
  rw [nidx_apply]
  refine IntOp.andi_eq_one.mpr ⟨IntOp.cmpi_sge.mpr ?_, IntOp.cmpi_sle.mpr ?_⟩
  · simpa using hr.1
  · rw [hhi]; exact hr.2

/-- So there the guarded read is the plain read. -/
theorem takeFill_apply {T : Shape} (d : GatherDims T S640000x1 S640000x128) (n : Nat) (hn : n < 2 ^ 30) (nw hi : BitVec 32)
    (hnw : nw = BitVec.ofNat 32 n) (hhi : hi.toInt = (n : Int) - 1) (tbl : FVec Ideal T .f32) (idx : IVec S640000 32)
    (e : Fin 640000) (k : Fin 128) (h1 : -(n : Int) ≤ (idx (ix1 e)).toInt) (h2 : (idx (ix1 e)).toInt < n) :
    takeFill d nw hi tbl idx (ix2 e k) = Host.gather d tbl (nidx nw idx) (ix2 e k) := by
  unfold takeFill
  rw [select_apply, inb_apply_of_range n hn nw hi hnw hhi idx e k h1 h2, select_one]

end Guarded

end Cert.Take

end
-- ==== Proof.Tail.lean ====
/-
  The scatter-mean both programs end with: each edge's result row is added into the row of its source node, each node's
  sum is divided by the number of its edges (at least one), and the node array is cut into its two results.

  An edge whose source index is outside `[0, 50000)` lands on no node: its row is dropped. So two arrays of edge rows
  that agree on every edge with a source index inside that range have the same scatter-mean.
-/
import proofs.«419911_j72516227826099_1_alg».proof.KernelIdeal
import Idealize.ShloMosaic.Lib.Pipeline.Value
import Idealize.ShloMosaic.Lib.ValueIdx

noncomputable section

open scoped BigOperators

namespace Cert.Tail

open Idealize.ShloMosaic Idealize.ShloMosaic.ValueIdx
open Cert.KernelIdeal Cert.KernelIdeal.Facts₀

variable [Cert.KernelIdeal.Facts]

/-- The source indices as a one-column matrix (the scatter's start indices). -/
def srcCol (src : IVec S640000 32) : IVec S640000x1 32 :=
  broadcastInDim S640000x1 ![0] bcast_S640000_S640000x1_0 src

/-- Each node's sum of its edges' rows. -/
def sums (src : IVec S640000 32) (T : FVec Ideal S640000x128 .f32) : FVec Ideal S50000x128 .f32 :=
  Host.scatterAdd scatter_S50000x128_S640000x1_S640000x128_1_0_0_1
    (broadcastInDim S50000x128 ![] bcast_S_S50000x128 (constant S_ .f32 0x00000000#32)) (srcCol src) T

/-- Each node's number of edges. -/
def counts (src : IVec S640000 32) : FVec Ideal S50000 .f32 :=
  Host.scatterAdd scatter_S50000_S640000x1_S640000_n_0_0_1
    (broadcastInDim S50000 ![] bcast_S_S50000 (constant S_ .f32 0x00000000#32)) (srcCol src)
    (broadcastInDim S640000 ![] bcast_S_S640000 (constant S_ .f32 0x3F800000#32))

/-- Each node's mean of its edges' rows (a node without edges divides by one). -/
def meanArr (src : IVec S640000 32) (T : FVec Ideal S640000x128 .f32) : FVec Ideal S50000x128 .f32 :=
  Host.divf (sums src T)
    (broadcastInDim S50000x128 ![0, 1] bcast_S50000x1_S50000x128_0_1
      (broadcastInDim S50000x1 ![0] bcast_S50000_S50000x1_0
        (maximumf (counts src) (broadcastInDim S50000 ![] bcast_S_S50000 (constant S_ .f32 0x3F800000#32)))))

/-- The first 30000 nodes' means. -/
def out0 (src : IVec S640000 32) (T : FVec Ideal S640000x128 .f32) : FVec Ideal S30000x128 .f32 :=
  extractStridedSlice S30000x128 ![0, 0] (meanArr src T) slices_S50000x128_S30000x128_0_0

/-- The last 20000 nodes' means. -/
def out1 (src : IVec S640000 32) (T : FVec Ideal S640000x128 .f32) : FVec Ideal S20000x128 .f32 :=
  extractStridedSlice S20000x128 ![30000, 0] (meanArr src T) slices_S50000x128_S20000x128_30000_0

/-- An edge row that lands on a node has its source index in `[0, 50000)`. -/
theorem src_in_range_of_lands (src : IVec S640000 32) (e : Fin 640000) (k : Fin 128) (i : S50000x128.Idx)
    (h : scatter_S50000x128_S640000x1_S640000x128_1_0_0_1.resultIdx? (ix2 e k) (srcCol src) = some i) :
    0 ≤ (src (ix1 e)).toInt ∧ (src (ix1 e)).toInt < 50000 := by
  unfold ScatterDims.resultIdx? at h
  split at h
  · rename_i hall
    have h0 := hall 0
    have hs : scatter_S50000x128_S640000x1_S640000x128_1_0_0_1.start (ix2 e k) (srcCol src) 0 = (src (ix1 e)).toInt := by
      unfold ScatterDims.start
      rw [dif_pos (show (0 : Fin 2) ∈ scatter_S50000x128_S640000x1_S640000x128_1_0_0_1.scatterDimsToOperandDims from
        List.mem_singleton.mpr rfl)]
      refine congrArg BitVec.toInt ?_
      unfold srcCol
      refine broadcastInDim_apply _ bcast_S640000_S640000x1_0 src _ (ix1 e) (fun a => ?_)
      match a with
      | ⟨0, _⟩ => show e.val = if (640000 : Nat) = 1 then 0 else _; rw [if_neg (by decide)]; rfl
    have hw : scatter_S50000x128_S640000x1_S640000x128_1_0_0_1.window (ix2 e k) 0 = 0 := by
      have hk : (0 : Fin S50000x128.rank) ∉ S50000x128.kept ([0] : List (Fin S50000x128.rank)) := by decide
      unfold ScatterDims.window
      exact dif_neg hk
    rw [hs, hw] at h0
    have hsz : (S50000x128.size 0 : Int) = 50000 := rfl
    rw [hsz] at h0
    constructor <;> omega
  · exact absurd h (by simp)

/-- Edge rows with a source index outside `[0, 50000)` do not reach the sums. -/
theorem sums_congr (src : IVec S640000 32) (T T' : FVec Ideal S640000x128 .f32)
    (h : ∀ (e : Fin 640000) (k : Fin 128), 0 ≤ (src (ix1 e)).toInt → (src (ix1 e)).toInt < 50000 →
      T (ix2 e k) = T' (ix2 e k)) : sums src T = sums src T' := by
  funext i
  show Ideal.hostScatterAdd _ _ _ T i = Ideal.hostScatterAdd _ _ _ T' i
  unfold Ideal.hostScatterAdd
  refine congrArg (_ + ·) (Finset.sum_congr rfl fun j hj => ?_)
  obtain ⟨e, k, rfl⟩ : ∃ (e : Fin 640000) (k : Fin 128), j = ix2 e k := ⟨j 0, j 1, eq_ix2 j⟩
  obtain ⟨h1, h2⟩ := src_in_range_of_lands src e k i (Finset.mem_filter.mp hj).2
  exact h e k h1 h2

/-- So the two results depend only on the rows of edges whose source index is inside `[0, 50000)`. -/
theorem out_congr (src : IVec S640000 32) (T T' : FVec Ideal S640000x128 .f32)
    (h : ∀ (e : Fin 640000) (k : Fin 128), 0 ≤ (src (ix1 e)).toInt → (src (ix1 e)).toInt < 50000 →
      T (ix2 e k) = T' (ix2 e k)) : out0 src T = out0 src T' ∧ out1 src T = out1 src T' := by
  unfold out0 out1 meanArr
  rw [sums_congr src T T' h]
  exact ⟨rfl, rfl⟩

end Cert.Tail

end
-- ==== Proof.KernelValue.lean ====
/-
  What the idealized kernel program leaves in its two result arrays, as one expression of its six argument arrays.

  The program's run is a chain of host stretches and two kernel regions. Reading the chain backwards from a result:
  the last stretch is the scatter-mean of the second region's output array by the source indices; that array is, row by
  row, the edge transform of the region's two input arrays; the first of those is the guarded read of the node array
  (the first region's output: the exponential map of every row of the concatenated embeddings) at the source indices,
  the second the sum of the guarded reads of the concatenated embeddings at the destination indices and of the relation
  embeddings at the relation indices. No stretch and no region writes an argument array.
-/
import proofs.«419911_j72516227826099_1_alg».proof.Proof.Gen.KernelIdeal.Frame
import proofs.«419911_j72516227826099_1_alg».proof.Proof.Blocks
import proofs.«419911_j72516227826099_1_alg».proof.Proof.Take
import proofs.«419911_j72516227826099_1_alg».proof.Proof.Tail
import Idealize.ShloMosaic.Lib.StableHlo.Run

set_option maxRecDepth 16384

noncomputable section

namespace Cert.KernelValue

open Idealize.ShloMosaic Idealize.ShloMosaic.TcCoe Idealize.ShloMosaic.ValueIdx Idealize.SL.Sem Idealize.ShloMosaic.StableHlo
open Cert.KernelIdeal Cert.KernelIdeal.Gen Cert.KernelIdeal.Facts₀ Cert.Spec

variable (m : (ℓ : Loc nD τ sig) → Buf (Elt Ideal) ℓ) (ρ : Dev nD → PrngReg)

/-- The concatenated embeddings. -/
def embed (a0 : FVec Ideal S30000x128 .f32) (a1 : FVec Ideal S20000x128 .f32) : FVec Ideal S50000x128 .f32 :=
  concatenate S50000x128 0 [⟨S30000x128, a0⟩, ⟨S20000x128, a1⟩] Facts₀.concatenates_S30000x128_S20000x128_S50000x128_d0

/-- The ball points the second region reads: the node array read, guarded, at the source indices. -/
def srcPoints (a0 : FVec Ideal S30000x128 .f32) (a1 : FVec Ideal S20000x128 .f32) (a3 : IVec S640000 32) :
    FVec Ideal S640000x128 .f32 :=
  Take.takeFill gather_S50000x128_S640000x1_S640000x128_1_0_n_n_0_1_1128 50000#32 49999#32
    (expArr (n := 50000) (embed a0 a1)) a3

/-- The tangents the second region reads: destination embedding plus relation embedding, each a guarded read. -/
def tangents (a0 : FVec Ideal S30000x128 .f32) (a1 : FVec Ideal S20000x128 .f32) (a2 : FVec Ideal S16x128 .f32)
    (a4 a5 : IVec S640000 32) : FVec Ideal S640000x128 .f32 :=
  addf (Take.takeFill gather_S50000x128_S640000x1_S640000x128_1_0_n_n_0_1_1128 50000#32 49999#32 (embed a0 a1) a4)
    (Take.takeFill gather_S16x128_S640000x1_S640000x128_1_0_n_n_0_1_1128 16#32 15#32 a2 a5)

/-- The per-edge array the second region leaves. -/
def edgeRows (a0 : FVec Ideal S30000x128 .f32) (a1 : FVec Ideal S20000x128 .f32) (a2 : FVec Ideal S16x128 .f32)
    (a3 a4 a5 : IVec S640000 32) : FVec Ideal S640000x128 .f32 :=
  edgeArr (n := 640000) (srcPoints a0 a1 a3) (tangents a0 a1 a2 a4 a5)

/-- A buffer none of a stretch's operations writes keeps its contents over the stretch. -/
syntax "kept_over " ident : tactic
macro_rules
  | `(tactic| kept_over $ops:ident) => `(tactic|
      (refine StableHlo.after_of_forall_not_mem _ _ (List.forall_iff_forall_mem.mp ?_)
       simp only [$ops:ident, List.Forall, StableHlo.nullary_writes, StableHlo.unary_writes, StableHlo.binary_writes,
         StableHlo.ternary_writes, StableHlo.quaternary_writes, StableHlo.reshape_writes, StableHlo.binaryIndexed_writes,
         Finset.mem_singleton]
       repeat' apply And.intro
       all_goals exact StableHlo.devRef_ne_of_ne (by decide)))

/-! ## Up to the first region's exit -/

theorem W1_arg (c : Dev nD) (b : Ref sig .tc) (hb : b ≠ main_v0) :
    W1 m ρ c (Proc.devRef .tc b) = m ((c : Thread nD τ).loc b) := by
  show StableHlo.after hostOps0 (W0 m ρ c) (Proc.devRef .tc b) = _
  refine (StableHlo.after_of_forall_not_mem (b := Proc.devRef .tc b) _ _ (List.forall_iff_forall_mem.mp ?_)).trans rfl
  simp only [hostOps0, List.Forall, StableHlo.binary_writes, Finset.mem_singleton]
  exact StableHlo.devRef_ne_of_ne hb

theorem V1_v0 (c : Dev nD) :
    V1 m ρ c main_v0 = embed (m ((c : Thread nD τ).loc main_arg0)) (m ((c : Thread nD τ).loc main_arg1)) := by
  show StableHlo.after hostOps0 (W0 m ρ c) (Proc.devRef .tc main_v0) = _
  after_results
  rfl

/-- The node array at the first region's exit. -/
theorem W2_v1 (c : Dev nD) : W2 m ρ c (Proc.devRef .tc main_v1)
    = expArr (n := 50000) (embed (m ((c : Thread nD τ).loc main_arg0)) (m ((c : Thread nD τ).loc main_arg1))) := by
  rw [← V1_v0 m ρ c]
  exact (W2_arr m ρ c 1).trans (Blocks.final0 (V1 m ρ) c)

/-- The concatenated embeddings are still there at the first region's exit (the region only reads them). -/
theorem W2_v0 (c : Dev nD) : W2 m ρ c (Proc.devRef .tc main_v0)
    = embed (m ((c : Thread nD τ).loc main_arg0)) (m ((c : Thread nD τ).loc main_arg1)) := by
  rw [← V1_v0 m ρ c]
  exact (W2_arr m ρ c 0).trans (((dat0 (F := Ideal) (V1 m ρ) c).arrAt_in 0 rfl cfg0.N).trans (A_eq0 (V1 m ρ) c 0))

theorem W2_arg (c : Dev nD) (b : Ref sig .tc) (hb0 : b ≠ main_v0) (hb1 : b ≠ main_v1) :
    W2 m ρ c (Proc.devRef .tc b) = m ((c : Thread nD τ).loc b) :=
  (W2_of_ne m ρ c b (fun w => by
    match w with
    | ⟨0, _⟩ => exact fun e => hb0 e.symm
    | ⟨1, _⟩ => exact fun e => hb1 e.symm)).trans (W1_arg m ρ c b hb0)

/-! ## The second region's inputs, and its exit -/

set_option maxHeartbeats 4000000 in
/-- The ball points at the second region's entry. -/
theorem V6_v2 (c : Dev nD) : V6 m ρ c main_v2
    = srcPoints (m ((c : Thread nD τ).loc main_arg0)) (m ((c : Thread nD τ).loc main_arg1)) (m ((c : Thread nD τ).loc main_arg3)) := by
  show StableHlo.after hostOps1_3 (StableHlo.after hostOps1_2 (StableHlo.after hostOps1_1 (StableHlo.after hostOps1 (W2 m ρ c))))
    (Proc.devRef .tc main_v2) = _
  after_results_simp
  simp only [StableHlo.TRef.ofBuf, StableHlo.TRef.toBuf, cast_eq, W2_v1 m ρ c, W2_arg m ρ c main_arg3 (by decide) (by decide)]
  rfl

set_option maxHeartbeats 4000000 in
/-- The tangents at the second region's entry. -/
theorem V6_v5 (c : Dev nD) : V6 m ρ c main_v5
    = tangents (m ((c : Thread nD τ).loc main_arg0)) (m ((c : Thread nD τ).loc main_arg1)) (m ((c : Thread nD τ).loc main_arg2))
        (m ((c : Thread nD τ).loc main_arg4)) (m ((c : Thread nD τ).loc main_arg5)) := by
  show StableHlo.after hostOps1_3 (StableHlo.after hostOps1_2 (StableHlo.after hostOps1_1 (StableHlo.after hostOps1 (W2 m ρ c))))
    (Proc.devRef .tc main_v5) = _
  after_results_simp
  simp only [StableHlo.TRef.ofBuf, StableHlo.TRef.toBuf, cast_eq, W2_v0 m ρ c, W2_arg m ρ c main_arg2 (by decide) (by decide), W2_arg m ρ c main_arg4 (by decide) (by decide),
    W2_arg m ρ c main_arg5 (by decide) (by decide)]
  rfl

set_option maxHeartbeats 4000000 in
/-- The source indices are untouched up to the second region's entry. -/
theorem W6_arg3 (c : Dev nD) : W6 m ρ c (Proc.devRef .tc main_arg3) = m ((c : Thread nD τ).loc main_arg3) := by
  show StableHlo.after hostOps1_3 (StableHlo.after hostOps1_2 (StableHlo.after hostOps1_1 (StableHlo.after hostOps1 (W2 m ρ c))))
    (Proc.devRef .tc main_arg3) = _
  after_results_simp
  exact W2_arg m ρ c main_arg3 (by decide) (by decide)

/-- The per-edge array at the second region's exit. -/
theorem W7_v6 (c : Dev nD) : W7 m ρ c (Proc.devRef .tc main_v6)
    = edgeRows (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (W7_arr m ρ c 2).trans ((Blocks.final1 (V6 m ρ) c).trans ?_)
  rw [V6_v2 m ρ c, V6_v5 m ρ c]
  rfl

theorem W7_arg3 (c : Dev nD) : W7 m ρ c (Proc.devRef .tc main_arg3) = m ((c : Thread nD τ).loc main_arg3) :=
  (W7_of_ne m ρ c main_arg3 (by decide)).trans (W6_arg3 m ρ c)

/-! ## The results -/

/-- The first result array at the end of the run. -/
theorem W8_v19 (c : Dev nD) : W8 m ρ c (Proc.devRef .tc main_v19)
    = Tail.out0 (m ((c : Thread nD τ).loc main_arg3))
        (edgeRows (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))) := by
  show StableHlo.after hostOps2 (W7 m ρ c) (Proc.devRef .tc main_v19) = _
  after_results
  simp only [W7_arg3 m ρ c, W7_v6 m ρ c]
  rfl

/-- The second result array at the end of the run. -/
theorem W8_v20 (c : Dev nD) : W8 m ρ c (Proc.devRef .tc main_v20)
    = Tail.out1 (m ((c : Thread nD τ).loc main_arg3))
        (edgeRows (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))) := by
  show StableHlo.after hostOps2 (W7 m ρ c) (Proc.devRef .tc main_v20) = _
  after_results
  simp only [W7_arg3 m ρ c, W7_v6 m ρ c]
  rfl

end Cert.KernelValue

end
-- ==== Proof.RefRows.lean ====
/-
  The reference's two row-wise stages, read one element at a time: its node array (the exponential map of every
  embedding row) and its per-edge array (the edge transform of the gathered ball point and tangent rows), each as the
  row function of the rows it was computed from. Every row sum of the reference (a host sum over axis 1 from the
  initial value zero, broadcast back) is the sum over the 128 lanes of that row.
-/
import proofs.«419911_j72516227826099_1_alg».proof.Proof.RefRead
import proofs.«419911_j72516227826099_1_alg».proof.Proof.Spec

noncomputable section

open scoped BigOperators

namespace Cert.RefRows

open Idealize.ShloMosaic Idealize.ShloMosaic.ValueIdx Cert.ReferenceIdeal Cert.ReferenceIdeal.ReadP Cert.Spec

/-- Reading one lane of the row sum of row `e` of the node array, from either of its two broadcasts back to 128
    lanes, reads lane `k'` of row `e`. -/
theorem idx_node_a (e : Fin 50000) (k k' : Fin 128) :
    idx_main_v2 (idx_main_v3 (idx_main_v8 (ix2 e k))) k' = ix2 e k' :=
  funext fun a => Fin.ext (by match a with | ⟨0, _⟩ => rfl | ⟨1, _⟩ => rfl)

theorem idx_node_b (e : Fin 50000) (k k' : Fin 128) :
    idx_main_v2 (idx_main_v3 (idx_main_v10 (ix2 e k))) k' = ix2 e k' :=
  funext fun a => Fin.ext (by match a with | ⟨0, _⟩ => rfl | ⟨1, _⟩ => rfl)

/-- The reference's node array at row `e`, lane `k`: the exponential map of row `e` of the concatenated embeddings. -/
theorem node_apply (x0 : FVec Ideal S30000x128 .f32) (x1 : FVec Ideal S20000x128 .f32) (e : Fin 50000) (k : Fin 128) :
    val_main_v11 (F := Ideal) x0 x1 (ix2 e k) = expRow (rowOf (val_main_v0 (F := Ideal) x0 x1) e) k := by
  -- the eleven operations, from the quotient down to the concatenated embeddings
  simp -implicitDefEqProofs only [val_main_v11_apply, val_main_v10_apply, val_main_v9_apply, val_main_v8_apply, val_main_v7_apply,
    val_main_v6_apply, val_main_v5_apply, val_main_v4_apply, val_main_v3_apply, val_main_v2_apply, val_main_v1_apply,
    val_main_cst_apply, val_main_cst_0_apply]
  -- the field operations on the extended reals; the row sum starts from zero
  simp -implicitDefEqProofs only [Ideal.mulf_def, Ideal.hostDivf_def, Ideal.maximumf_def, Ideal.hostUnary_sqrt_def, Ideal.hostUnary_tanh_def,
    Ideal.ofBits_def, Ideal.ofBits_zero_f32, zero_add]
  -- both row sums run over the lanes of row `e`
  simp -implicitDefEqProofs only [idx_node_a, idx_node_b]
  simp -implicitDefEqProofs only [expRow, nrm, Cert.Spec.sq]

section Edge

/-- An equation between two indices of rank 2, coordinate by coordinate. -/
local macro "idx_eq" : tactic =>
  `(tactic| exact funext fun a => Fin.ext (by match a with | ⟨0, _⟩ => rfl | ⟨1, _⟩ => rfl))

/-! The index of lane `k'` inside the row sum of row `e`, read through the sum's broadcast to one column. -/

theorem idx_sum35 (e : Fin 640000) (z : Fin 1) (k' : Fin 128) :
    idx_main_v35 (idx_main_v36 (ix2 e z)) k' = ix2 e k' := by idx_eq
theorem idx_sum42 (e : Fin 640000) (z : Fin 1) (k' : Fin 128) :
    idx_main_v42 (idx_main_v43 (ix2 e z)) k' = ix2 e k' := by idx_eq
theorem idx_sum48 (e : Fin 640000) (z : Fin 1) (k' : Fin 128) :
    idx_main_v48 (idx_main_v49 (ix2 e z)) k' = ix2 e k' := by idx_eq
theorem idx_sum65 (e : Fin 640000) (z : Fin 1) (k' : Fin 128) :
    idx_main_v65 (idx_main_v66 (ix2 e z)) k' = ix2 e k' := by idx_eq
theorem idx_sum68 (e : Fin 640000) (z : Fin 1) (k' : Fin 128) :
    idx_main_v68 (idx_main_v69 (ix2 e z)) k' = ix2 e k' := by idx_eq
theorem idx_sum71 (e : Fin 640000) (z : Fin 1) (k' : Fin 128) :
    idx_main_v71 (idx_main_v72 (ix2 e z)) k' = ix2 e k' := by idx_eq
theorem idx_sum96 (e : Fin 640000) (z : Fin 1) (k' : Fin 128) :
    idx_main_v96 (idx_main_v97 (ix2 e z)) k' = ix2 e k' := by idx_eq

/-! A one-column array broadcast to 128 lanes is read, at lane `k` of row `e`, at its only column of row `e`. -/

theorem idx_bc39 (e : Fin 640000) (k : Fin 128) : idx_main_v39 (ix2 e k) = ix2 e (⟨0, Nat.one_pos⟩ : Fin 1) := by idx_eq
theorem idx_bc60 (e : Fin 640000) (k : Fin 128) : idx_main_v60 (ix2 e k) = ix2 e (⟨0, Nat.one_pos⟩ : Fin 1) := by idx_eq
theorem idx_bc62 (e : Fin 640000) (k : Fin 128) : idx_main_v62 (ix2 e k) = ix2 e (⟨0, Nat.one_pos⟩ : Fin 1) := by idx_eq
theorem idx_bc78 (e : Fin 640000) (k : Fin 128) : idx_main_v78 (ix2 e k) = ix2 e (⟨0, Nat.one_pos⟩ : Fin 1) := by idx_eq
theorem idx_bc82 (e : Fin 640000) (k : Fin 128) : idx_main_v82 (ix2 e k) = ix2 e (⟨0, Nat.one_pos⟩ : Fin 1) := by idx_eq
theorem idx_bc93 (e : Fin 640000) (k : Fin 128) : idx_main_v93 (ix2 e k) = ix2 e (⟨0, Nat.one_pos⟩ : Fin 1) := by idx_eq
theorem idx_bc108 (e : Fin 640000) (k : Fin 128) : idx_main_v108 (ix2 e k) = ix2 e (⟨0, Nat.one_pos⟩ : Fin 1) := by idx_eq
theorem idx_bc110 (e : Fin 640000) (k : Fin 128) : idx_main_v110 (ix2 e k) = ix2 e (⟨0, Nat.one_pos⟩ : Fin 1) := by idx_eq

variable (x0 : FVec Ideal S30000x128 .f32) (x1 : FVec Ideal S20000x128 .f32) (x2 : FVec Ideal S16x128 .f32)
  (x3 x4 x5 : IVec S640000 32)

/-- The rows of the gathered ball points and of the tangents. -/
local notation "ptX" => rowOf (val_main_v18 (F := Ideal) x0 x1 x3)
local notation "tgU" => rowOf (val_main_v33 (F := Ideal) x0 x1 x2 x4 x5)

set_option maxHeartbeats 400000 in
/-- The squared norm of the ball point of edge `e` (the reference computes it three times). -/
theorem sqX_36 (e : Fin 640000) (z : Fin 1) :
    val_main_v36 (F := Ideal) x0 x1 x3 (ix2 e z) = Cert.Spec.sq (ptX e) := by
  simp -implicitDefEqProofs only [val_main_v36_apply, val_main_v35_apply, val_main_v34_apply, val_main_cst_6_apply, Ideal.mulf_def,
    Ideal.ofBits_def, Ideal.ofBits_zero_f32, zero_add, idx_sum35]
  simp -implicitDefEqProofs only [Cert.Spec.sq]

set_option maxHeartbeats 400000 in
theorem sqX_49 (e : Fin 640000) (z : Fin 1) :
    val_main_v49 (F := Ideal) x0 x1 x3 (ix2 e z) = Cert.Spec.sq (ptX e) := by
  simp -implicitDefEqProofs only [val_main_v49_apply, val_main_v48_apply, val_main_v47_apply, val_main_cst_10_apply, Ideal.mulf_def,
    Ideal.ofBits_def, Ideal.ofBits_zero_f32, zero_add, idx_sum48]
  simp -implicitDefEqProofs only [Cert.Spec.sq]

set_option maxHeartbeats 400000 in
theorem sqX_66 (e : Fin 640000) (z : Fin 1) :
    val_main_v66 (F := Ideal) x0 x1 x3 (ix2 e z) = Cert.Spec.sq (ptX e) := by
  simp -implicitDefEqProofs only [val_main_v66_apply, val_main_v65_apply, val_main_v64_apply, val_main_cst_15_apply, Ideal.mulf_def,
    Ideal.ofBits_def, Ideal.ofBits_zero_f32, zero_add, idx_sum65]
  simp -implicitDefEqProofs only [Cert.Spec.sq]

set_option maxHeartbeats 400000 in
/-- The tangent of edge `e` transported from the origin to its ball point. -/
theorem transp_40 (e : Fin 640000) (k : Fin 128) :
    val_main_v40 (F := Ideal) x0 x1 x2 x3 x4 x5 (ix2 e k) = transp (ptX e) (tgU e) k := by
  simp -implicitDefEqProofs only [val_main_v40_apply, val_main_v39_apply, idx_bc39, val_main_v38_apply, val_main_v37_apply,
    val_main_cst_7_apply, sqX_36, Ideal.mulf_def, Ideal.subf_def, Ideal.ofBits_def]
  simp -implicitDefEqProofs only [transp]

set_option maxHeartbeats 400000 in
/-- The guarded norm of the transported tangent. -/
theorem nrmT_46 (e : Fin 640000) (z : Fin 1) :
    val_main_v46 (F := Ideal) x0 x1 x2 x3 x4 x5 (ix2 e z) = nrm (Cert.Spec.sq (transp (ptX e) (tgU e))) := by
  simp -implicitDefEqProofs only [val_main_v46_apply, val_main_v45_apply, val_main_v44_apply, val_main_cst_9_apply, val_main_v43_apply,
    val_main_v42_apply, val_main_cst_8_apply, val_main_v41_apply, idx_sum42, transp_40, Ideal.mulf_def,
    Ideal.maximumf_def, Ideal.hostUnary_sqrt_def, Ideal.ofBits_def, Ideal.ofBits_zero_f32, zero_add]
  simp -implicitDefEqProofs only [nrm, Cert.Spec.sq]

set_option maxHeartbeats 400000 in
/-- The conformal factor at the ball point. -/
theorem lam_55 (e : Fin 640000) (z : Fin 1) :
    val_main_v55 (F := Ideal) x0 x1 x3 (ix2 e z) = lam (ptX e) := by
  simp -implicitDefEqProofs only [val_main_v55_apply, val_main_v54_apply, val_main_cst_13_apply, val_main_v53_apply, val_main_v52_apply,
    val_main_cst_12_apply, val_main_v51_apply, val_main_v50_apply, val_main_cst_11_apply, sqX_49, Ideal.hostDivf_def,
    Ideal.maximumf_def, Ideal.subf_def, Ideal.ofBits_def]
  simp -implicitDefEqProofs only [lam]

set_option maxHeartbeats 400000 in
/-- The second operand of the Mobius addition. -/
theorem second_63 (e : Fin 640000) (k : Fin 128) :
    val_main_v63 (F := Ideal) x0 x1 x2 x3 x4 x5 (ix2 e k) = second (ptX e) (tgU e) k := by
  simp -implicitDefEqProofs only [val_main_v63_apply, val_main_v62_apply, idx_bc62, val_main_v61_apply, val_main_v60_apply, idx_bc60,
    val_main_v59_apply, val_main_v58_apply, val_main_v57_apply, val_main_v56_apply, val_main_cst_14_apply, lam_55,
    nrmT_46, transp_40, Ideal.mulf_def, Ideal.hostDivf_def, Ideal.hostUnary_tanh_def, Ideal.ofBits_def]
  simp -implicitDefEqProofs only [second]

set_option maxHeartbeats 400000 in
/-- Its squared norm. -/
theorem sqY_69 (e : Fin 640000) (z : Fin 1) :
    val_main_v69 (F := Ideal) x0 x1 x2 x3 x4 x5 (ix2 e z) = Cert.Spec.sq (second (ptX e) (tgU e)) := by
  simp -implicitDefEqProofs only [val_main_v69_apply, val_main_v68_apply, val_main_cst_16_apply, val_main_v67_apply, idx_sum68, second_63,
    Ideal.mulf_def, Ideal.ofBits_def, Ideal.ofBits_zero_f32, zero_add]
  simp -implicitDefEqProofs only [Cert.Spec.sq]

set_option maxHeartbeats 400000 in
/-- Its inner product with the ball point. -/
theorem dotXY_72 (e : Fin 640000) (z : Fin 1) :
    val_main_v72 (F := Ideal) x0 x1 x2 x3 x4 x5 (ix2 e z) = dot (ptX e) (second (ptX e) (tgU e)) := by
  simp -implicitDefEqProofs only [val_main_v72_apply, val_main_v71_apply, val_main_cst_17_apply, val_main_v70_apply, idx_sum71, second_63,
    Ideal.mulf_def, Ideal.ofBits_def, Ideal.ofBits_zero_f32, zero_add]
  simp -implicitDefEqProofs only [dot]

set_option maxHeartbeats 400000 in
/-- The numerator of the Mobius addition. -/
theorem mobNum_84 (e : Fin 640000) (k : Fin 128) :
    val_main_v84 (F := Ideal) x0 x1 x2 x3 x4 x5 (ix2 e k) = mobNum (ptX e) (second (ptX e) (tgU e)) k := by
  simp -implicitDefEqProofs only [val_main_v84_apply, val_main_v79_apply, val_main_v78_apply, idx_bc78, val_main_v77_apply,
    val_main_v76_apply, val_main_v75_apply, val_main_cst_19_apply, val_main_v74_apply, val_main_v73_apply,
    val_main_cst_18_apply, dotXY_72, sqY_69, val_main_v83_apply, val_main_v82_apply, idx_bc82, val_main_v81_apply,
    val_main_v80_apply, val_main_cst_20_apply, sqX_66, second_63, Ideal.mulf_def, Ideal.addf_def, Ideal.subf_def,
    Ideal.ofBits_def]
  simp -implicitDefEqProofs only [mobNum]

set_option maxHeartbeats 400000 in
/-- The guarded denominator of the Mobius addition. -/
theorem mobDen_92 (e : Fin 640000) (z : Fin 1) :
    val_main_v92 (F := Ideal) x0 x1 x2 x3 x4 x5 (ix2 e z) = mobDen (ptX e) (second (ptX e) (tgU e)) := by
  simp -implicitDefEqProofs only [val_main_v92_apply, val_main_v91_apply, val_main_cst_23_apply, val_main_v90_apply, val_main_v89_apply,
    val_main_v88_apply, val_main_v87_apply, val_main_cst_22_apply, val_main_v86_apply, val_main_v85_apply,
    val_main_cst_21_apply, dotXY_72, sqX_66, sqY_69, Ideal.mulf_def, Ideal.addf_def, Ideal.maximumf_def,
    Ideal.ofBits_def]
  simp -implicitDefEqProofs only [mobDen]

set_option maxHeartbeats 400000 in
/-- The Mobius sum of the ball point and the second operand. -/
theorem moved_94 (e : Fin 640000) (k : Fin 128) :
    val_main_v94 (F := Ideal) x0 x1 x2 x3 x4 x5 (ix2 e k) = moved (ptX e) (second (ptX e) (tgU e)) k := by
  simp -implicitDefEqProofs only [val_main_v94_apply, val_main_v93_apply, idx_bc93, mobNum_84, mobDen_92, Ideal.hostDivf_def]
  simp -implicitDefEqProofs only [moved]

set_option maxHeartbeats 400000 in
/-- Its guarded norm. -/
theorem nrmM_100 (e : Fin 640000) (z : Fin 1) :
    val_main_v100 (F := Ideal) x0 x1 x2 x3 x4 x5 (ix2 e z)
      = nrm (Cert.Spec.sq (moved (ptX e) (second (ptX e) (tgU e)))) := by
  simp -implicitDefEqProofs only [val_main_v100_apply, val_main_v99_apply, val_main_v98_apply, val_main_cst_25_apply, val_main_v97_apply,
    val_main_v96_apply, val_main_cst_24_apply, val_main_v95_apply, idx_sum96, moved_94, Ideal.mulf_def,
    Ideal.maximumf_def, Ideal.hostUnary_sqrt_def, Ideal.ofBits_def, Ideal.ofBits_zero_f32, zero_add]
  simp -implicitDefEqProofs only [nrm, Cert.Spec.sq]

set_option maxHeartbeats 400000 in
/-- The clipped inverse hyperbolic tangent of that norm: the clip, the two `log1p`, their difference, the half. -/
theorem artanhc_107 (e : Fin 640000) (z : Fin 1) :
    val_main_v107 (F := Ideal) x0 x1 x2 x3 x4 x5 (ix2 e z)
      = artanhc (nrm (Cert.Spec.sq (moved (ptX e) (second (ptX e) (tgU e))))) := by
  simp -implicitDefEqProofs only [val_main_v107_apply, val_main_v106_apply, val_main_cst_28_apply, val_main_v105_apply, val_main_v104_apply,
    val_main_v103_apply, val_main_v102_apply, val_main_v101_apply, val_main_call0_v4_apply, val_main_call0_v3_apply,
    val_main_cst_27_apply, val_main_call0_v2_apply, val_main_call0_v1_apply, val_main_call0_v0_apply,
    val_main_cst_26_apply, nrmM_100, Ideal.mulf_def, Ideal.subf_def, Ideal.minimumf_def, Ideal.maximumf_def,
    Ideal.hostUnary_log1p_def, Ideal.hostNegf_def, Ideal.negf_def, Ideal.ofBits_def]
  simp -implicitDefEqProofs only [artanhc, clipn]

set_option maxHeartbeats 400000 in
/-- The logarithmic map at the origin of the Mobius sum, at edge `e`, lane `k`. -/
theorem logmap_111 (e : Fin 640000) (k : Fin 128) :
    val_main_v111 (F := Ideal) x0 x1 x2 x3 x4 x5 (ix2 e k) = logmap (moved (ptX e) (second (ptX e) (tgU e))) k := by
  simp -implicitDefEqProofs only [val_main_v111_apply, val_main_v110_apply, idx_bc110, val_main_v109_apply, val_main_v108_apply, idx_bc108,
    artanhc_107, moved_94, nrmM_100, Ideal.mulf_def, Ideal.hostDivf_def]
  simp -implicitDefEqProofs only [logmap]

end Edge

set_option maxHeartbeats 400000 in
/-- The reference's per-edge array at edge `e`, lane `k`: the edge transform of row `e` of the gathered ball points and
    row `e` of the tangents. -/
theorem edge_apply (x0 : FVec Ideal S30000x128 .f32) (x1 : FVec Ideal S20000x128 .f32) (x2 : FVec Ideal S16x128 .f32)
    (x3 x4 x5 : IVec S640000 32) (e : Fin 640000) (k : Fin 128) :
    val_main_v111 (F := Ideal) x0 x1 x2 x3 x4 x5 (ix2 e k)
      = edgeRow (rowOf (val_main_v18 (F := Ideal) x0 x1 x3) e) (rowOf (val_main_v33 (F := Ideal) x0 x1 x2 x4 x5) e) k :=
  logmap_111 x0 x1 x2 x3 x4 x5 e k

end Cert.RefRows

end
-- ==== Proof.Bridge.lean ====
/-
  The two programs' results are one function of the arguments.

  Both compute, per edge, the edge transform of (node array at the normalized source index, embedding at the normalized
  destination index plus relation embedding at the normalized relation index) and scatter-mean the rows by the RAW source
  index. They differ in one place: the kernel program replaces a read row by a filler where the normalized index is
  outside its table. For the destination and relation reads the precondition keeps every index inside `[-n, n)`, where
  no filler is used. For the source read nothing is assumed: an edge whose normalized source index is outside the table
  has its raw source index outside `[0, 50000)`, so its row (filler or not) is dropped by the scatter. On every edge
  whose raw source index is inside `[0, 50000)` the two programs' rows agree, and the scatter-mean sees no other edge.
-/
import proofs.«419911_j72516227826099_1_alg».proof.Proof.KernelValue
import proofs.«419911_j72516227826099_1_alg».proof.Proof.RefRows

set_option maxRecDepth 16384

noncomputable section

namespace Cert.Bridge

open Idealize.ShloMosaic Idealize.ShloMosaic.ValueIdx
open Cert.Spec Cert.KernelValue
open Cert.ReferenceIdeal.ReadP

abbrev K30 := Cert.KernelIdeal.S30000x128
abbrev K20 := Cert.KernelIdeal.S20000x128
abbrev K16 := Cert.KernelIdeal.S16x128
abbrev KE := Cert.KernelIdeal.S640000

variable (a0 : FVec Ideal K30 .f32) (a1 : FVec Ideal K20 .f32) (a2 : FVec Ideal K16 .f32) (a3 a4 a5 : IVec KE 32)

/-- The reference's node array is the exponential map of every row of the concatenated embeddings. -/
theorem ref_nodes : val_main_v11 (F := Ideal) a0 a1 = expArr (n := 50000) (embed a0 a1) := by
  funext i
  obtain ⟨e, k, rfl⟩ : ∃ (e : Fin 50000) (k : Fin 128), i = ix2 e k := ⟨i 0, i 1, eq_ix2 i⟩
  exact Cert.RefRows.node_apply a0 a1 e k

/-- The reference's ball points: the node array read, unguarded, at the normalized source indices. -/
theorem ref_srcPoints : val_main_v18 (F := Ideal) a0 a1 a3
    = Host.gather Cert.KernelIdeal.gather_S50000x128_S640000x1_S640000x128_1_0_n_n_0_1_1128
        (expArr (n := 50000) (embed a0 a1)) (Take.nidx 50000#32 a3) := by
  rw [← ref_nodes a0 a1]
  rfl

/-- The reference's tangents: unguarded reads at the normalized destination and relation indices, added. -/
theorem ref_tangents : val_main_v33 (F := Ideal) a0 a1 a2 a4 a5
    = addf (Host.gather Cert.KernelIdeal.gather_S50000x128_S640000x1_S640000x128_1_0_n_n_0_1_1128 (embed a0 a1) (Take.nidx 50000#32 a4))
        (Host.gather Cert.KernelIdeal.gather_S16x128_S640000x1_S640000x128_1_0_n_n_0_1_1128 a2 (Take.nidx 16#32 a5)) := rfl

/-- The reference's per-edge array is the row-wise edge transform of its ball points and tangents. -/
theorem ref_edgeRows : val_main_v111 (F := Ideal) a0 a1 a2 a3 a4 a5
    = edgeArr (n := 640000) (val_main_v18 (F := Ideal) a0 a1 a3) (val_main_v33 (F := Ideal) a0 a1 a2 a4 a5) := by
  funext i
  obtain ⟨e, k, rfl⟩ : ∃ (e : Fin 640000) (k : Fin 128), i = ix2 e k := ⟨i 0, i 1, eq_ix2 i⟩
  exact Cert.RefRows.edge_apply a0 a1 a2 a3 a4 a5 e k

/-- The reference's results are the scatter-mean of its per-edge array by the source indices. -/
theorem ref_out0 : val_main_v124 (F := Ideal) a0 a1 a2 a3 a4 a5
    = Tail.out0 a3 (edgeArr (n := 640000) (val_main_v18 (F := Ideal) a0 a1 a3) (val_main_v33 (F := Ideal) a0 a1 a2 a4 a5)) := by
  rw [← ref_edgeRows a0 a1 a2 a3 a4 a5]
  rfl

theorem ref_out1 : val_main_v125 (F := Ideal) a0 a1 a2 a3 a4 a5
    = Tail.out1 a3 (edgeArr (n := 640000) (val_main_v18 (F := Ideal) a0 a1 a3) (val_main_v33 (F := Ideal) a0 a1 a2 a4 a5)) := by
  rw [← ref_edgeRows a0 a1 a2 a3 a4 a5]
  rfl

/-- On an edge whose raw source index is inside `[0, 50000)`, with the destination and relation indices inside
    `[-50000, 50000)` and `[-16, 16)`, the two programs' per-edge rows agree. -/
theorem edge_rows_agree
    (h4 : ∀ e : Fin 640000, -50000 ≤ (a4 (ix1 e)).toInt ∧ (a4 (ix1 e)).toInt < 50000)
    (h5 : ∀ e : Fin 640000, -16 ≤ (a5 (ix1 e)).toInt ∧ (a5 (ix1 e)).toInt < 16)
    (e : Fin 640000) (k : Fin 128) (h31 : 0 ≤ (a3 (ix1 e)).toInt) (h32 : (a3 (ix1 e)).toInt < 50000) :
    edgeRows a0 a1 a2 a3 a4 a5 (ix2 e k)
      = edgeArr (n := 640000) (val_main_v18 (F := Ideal) a0 a1 a3) (val_main_v33 (F := Ideal) a0 a1 a2 a4 a5) (ix2 e k) := by
  unfold edgeRows
  rw [edgeArr_apply, edgeArr_apply]
  have hx : rowOf (srcPoints a0 a1 a3) e = rowOf (val_main_v18 (F := Ideal) a0 a1 a3) e := by
    funext q
    show srcPoints a0 a1 a3 (ix2 e q) = val_main_v18 (F := Ideal) a0 a1 a3 (ix2 e q)
    rw [ref_srcPoints a0 a1 a3]
    exact Take.takeFill_apply _ 50000 (by norm_num) 50000#32 49999#32 rfl (by decide) _ a3 e q (by omega) (by omega)
  have hu : rowOf (tangents a0 a1 a2 a4 a5) e = rowOf (val_main_v33 (F := Ideal) a0 a1 a2 a4 a5) e := by
    funext q
    show tangents a0 a1 a2 a4 a5 (ix2 e q) = val_main_v33 (F := Ideal) a0 a1 a2 a4 a5 (ix2 e q)
    rw [ref_tangents a0 a1 a2 a4 a5]
    unfold tangents
    rw [addf_apply, addf_apply,
      Take.takeFill_apply _ 50000 (by norm_num) 50000#32 49999#32 rfl (by decide) _ a4 e q (h4 e).1 (h4 e).2,
      Take.takeFill_apply _ 16 (by norm_num) 16#32 15#32 rfl (by decide) _ a5 e q (h5 e).1 (h5 e).2]
  rw [hx, hu]

/-- The kernel program's results equal the reference's. -/
theorem results_eq
    (h4 : ∀ e : Fin 640000, -50000 ≤ (a4 (ix1 e)).toInt ∧ (a4 (ix1 e)).toInt < 50000)
    (h5 : ∀ e : Fin 640000, -16 ≤ (a5 (ix1 e)).toInt ∧ (a5 (ix1 e)).toInt < 16) :
    Tail.out0 a3 (edgeRows a0 a1 a2 a3 a4 a5) = val_main_v124 (F := Ideal) a0 a1 a2 a3 a4 a5
      ∧ Tail.out1 a3 (edgeRows a0 a1 a2 a3 a4 a5) = val_main_v125 (F := Ideal) a0 a1 a2 a3 a4 a5 := by
  rw [ref_out0 a0 a1 a2 a3 a4 a5, ref_out1 a0 a1 a2 a3 a4 a5]
  exact Tail.out_congr a3 _ _ fun e k h1 h2 => edge_rows_agree a0 a1 a2 a3 a4 a5 h4 h5 e k h1 h2

end Cert.Bridge

end
-- ==== Proof.PreDecode.lean ====
/-
  What the precondition says of the two index inputs that are read without a later drop: every destination index is in
  `[-50000, 50000)` and every relation index in `[-16, 16)` (signed): the indices Python's indexing of a table of 50000,
  respectively 16, rows accepts. (The precondition's finiteness conjuncts are not needed: both programs compute the same
  expression of their inputs, operation for operation.)
-/
import proofs.«419911_j72516227826099_1_alg».proof.Pre_finite_inputs
import Idealize.ShloMosaic.Lib.ValueIdx
import Idealize.ShloMosaic.Lib.Affine
import Idealize.ShloMosaic.Lib.ReduceAll

noncomputable section

namespace Cert.PreDecode

open Idealize.ShloMosaic Idealize.ShloMosaic.ValueIdx
open Cert.Pre_finite_inputs Cert.Pre_finite_inputs.Facts

variable [Cert.Pre_finite_inputs.Facts]

instance : Subsingleton S_.Idx := ⟨fun a b => funext fun d => d.elim0⟩

theorem toInt_neg50000 : (4294917296#32 : BitVec 32).toInt = -50000 := by decide
theorem toInt_50000 : (50000#32 : BitVec 32).toInt = 50000 := by decide
theorem toInt_neg16 : (4294967280#32 : BitVec 32).toInt = -16 := by decide
theorem toInt_16 : (16#32 : BitVec 32).toInt = 16 := by decide

/-- The precondition bounds the destination and relation indices. -/
theorem ranges_of_pre (a0 : FVec Ideal S30000x128 .f32) (a1 : FVec Ideal S20000x128 .f32) (a2 : FVec Ideal S16x128 .f32)
    (a3 a4 a5 : IVec S640000 32)
    (h : Cert.Pre_finite_inputs.fn (F := Ideal) a0 a1 a2 a3 a4 a5 = fun _ => 1#1) :
    (∀ e : Fin 640000, -50000 ≤ (a4 (ix1 e)).toInt ∧ (a4 (ix1 e)).toInt < 50000)
      ∧ (∀ e : Fin 640000, -16 ≤ (a5 (ix1 e)).toInt ∧ (a5 (ix1 e)).toInt < 16) := by
  have h0 := congrFun h ix0
  dsimp only [fn, fn_part1] at h0
  obtain ⟨h20, h26⟩ := IntOp.andi_eq_one.mp h0
  obtain ⟨-, h19⟩ := IntOp.andi_eq_one.mp h20
  refine ⟨fun e => ?_, fun e => ?_⟩
  · have he := Host.reduce_andi_all _ _ _ _ _ h19 (ix1 e)
    obtain ⟨hge, hlt⟩ := IntOp.andi_eq_one.mp he
    have hge' : (4294917296#32 : BitVec 32).toInt ≤ (a4 (ix1 e)).toInt := IntOp.cmpi_sge.mp hge
    have hlt' : (a4 (ix1 e)).toInt < (50000#32 : BitVec 32).toInt := IntOp.cmpi_slt.mp hlt
    rw [toInt_neg50000] at hge'
    rw [toInt_50000] at hlt'
    exact ⟨hge', hlt'⟩
  · have he := Host.reduce_andi_all _ _ _ _ _ h26 (ix1 e)
    obtain ⟨hge, hlt⟩ := IntOp.andi_eq_one.mp he
    have hge' : (4294967280#32 : BitVec 32).toInt ≤ (a5 (ix1 e)).toInt := IntOp.cmpi_sge.mp hge
    have hlt' : (a5 (ix1 e)).toInt < (16#32 : BitVec 32).toInt := IntOp.cmpi_slt.mp hlt
    rw [toInt_neg16] at hge'
    rw [toInt_16] at hlt'
    exact ⟨hge', hlt'⟩

end Cert.PreDecode

end
-- ==== Proof.lean ====
/-
  Per-edge hyperbolic message passing: the kernel program (two Pallas regions and the host glue around them) against
  its jnp reference, over the extended reals.

  Both programs concatenate the two embedding tables, map every node row to the Poincare ball (the exponential map at
  the origin), read for each of the 640000 edges the mapped row of its source node, the embedding row of its destination
  node and a relation row, push the tangent (destination + relation) through parallel transport, the exponential map at
  the source point (a Mobius addition) and the logarithmic map at the origin, and average the resulting rows over each
  source node. Operation for operation the two programs compute the same expression, so no finiteness and no law of
  arithmetic is needed; what the proof does is (i) read each kernel body and each reference stage row by row against one
  row-wise specification, (ii) assemble the kernel's blocks into whole arrays, and (iii) deal with the one place the
  programs differ: the kernel program's table reads put a filler row where a normalized index falls outside its table,
  the reference's clamp. For the destination and relation indices the precondition `-n ≤ index < n` (the indices
  Python's indexing accepts for a table of `n` rows) rules that out; for the source index nothing is assumed, because
  an edge whose source index is outside `[0, 50000)` is dropped by the final scatter in both programs.

  The three frames: the two kernel programs' are generated whole; the reference's is its run with the results dropped.
  `preserves` is trivial (the idealization rewrote nothing).
-/
import proofs.«419911_j72516227826099_1_alg».proof.Defs
import proofs.«419911_j72516227826099_1_alg».proof.Proof.Gen.Kernel
import proofs.«419911_j72516227826099_1_alg».proof.Proof.Gen.Kernel.Skeleton
import proofs.«419911_j72516227826099_1_alg».proof.Proof.Gen.Kernel.Launch
import proofs.«419911_j72516227826099_1_alg».proof.Proof.Gen.Kernel.Points
import proofs.«419911_j72516227826099_1_alg».proof.Proof.Gen.Kernel.Frame
import proofs.«419911_j72516227826099_1_alg».proof.Proof.Gen.KernelIdeal
import proofs.«419911_j72516227826099_1_alg».proof.Proof.Gen.KernelIdeal.Skeleton
import proofs.«419911_j72516227826099_1_alg».proof.Proof.Gen.KernelIdeal.Launch
import proofs.«419911_j72516227826099_1_alg».proof.Proof.Gen.KernelIdeal.Points
import proofs.«419911_j72516227826099_1_alg».proof.Proof.Gen.KernelIdeal.Frame
import proofs.«419911_j72516227826099_1_alg».proof.Proof.Gen.ReferenceIdeal
import proofs.«419911_j72516227826099_1_alg».proof.Proof.Gen.Pre_finite_inputs
import proofs.«419911_j72516227826099_1_alg».proof.Proof.RunValue
import proofs.«419911_j72516227826099_1_alg».proof.Proof.RefRun
import proofs.«419911_j72516227826099_1_alg».proof.Proof.KernelValue
import proofs.«419911_j72516227826099_1_alg».proof.Proof.Bridge
import proofs.«419911_j72516227826099_1_alg».proof.Proof.PreDecode
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the results dropped. -/
theorem frame_referenceIdeal : Cert.frame_ReferenceIdeal := fun m ρ _ =>
  (θ_run Cert.ReferenceIdeal.defs _ _).mono (fun _ h c => (h c).2.2) (Cert.ReferenceIdeal.RunP.run (F := Ideal) m ρ)

theorem preserves : Cert.preserves_Kernel_KernelIdeal := trivial

/-- From memories agreeing on the arguments both programs run, and end with the same two result arrays: the
    scatter-mean, by the source indices, of the row-wise edge transform. -/
theorem algebraic : Cert.algebraic_KernelIdeal_ReferenceIdeal := by
  intro m ρ m' ρ' hpre hagree
  refine ⟨fun c => Cert.Tail.out0 (m ((c.tc : Thread Cert.KernelIdeal.nD Cert.KernelIdeal.τ).loc Cert.KernelIdeal.main_arg3))
      (Cert.KernelValue.edgeRows
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))),
    fun c => Cert.Tail.out1 (m ((c.tc : Thread Cert.KernelIdeal.nD Cert.KernelIdeal.τ).loc Cert.KernelIdeal.main_arg3))
      (Cert.KernelValue.edgeRows
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))), ?_, ?_⟩
  · exact (θ_run Cert.KernelIdeal.defs _ _).mono
      (fun r h c => ⟨(h c).1.trans (Cert.KernelValue.W8_v19 m ρ c), (h c).2.1.trans (Cert.KernelValue.W8_v20 m ρ c), (h c).2.2⟩)
      (Cert.KernelIdeal.GenV.run_valued (F := Ideal) m ρ)
  · refine (θ_run Cert.ReferenceIdeal.defs _ _).mono (fun r h c => ?_) (Cert.ReferenceIdeal.RunP.run (F := Ideal) m' ρ')
    obtain ⟨g0, g1, g2, g3, g4, g5⟩ := hagree c
    obtain ⟨r0, r1, rest⟩ := h c
    obtain ⟨h4, h5⟩ := Cert.PreDecode.ranges_of_pre _ _ _ _ _ _ (hpre c)
    obtain ⟨e0, e1⟩ := Cert.Bridge.results_eq
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) h4 h5
    refine ⟨?_, ?_, rest⟩
    · rw [r0, g0, g1, g2, g3, g4, g5]; exact e0.symm
    · rw [r1, g0, g1, g2, g3, g4, g5]; exact e1.symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
